-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x3 : Shape := ⟨3, ![16, 1024, 3]⟩
abbrev S16x4096x3 : Shape := ⟨3, ![16, 4096, 3]⟩
abbrev S16x1024x256 : Shape := ⟨3, ![16, 1024, 256]⟩
abbrev S16x4096x128 : Shape := ⟨3, ![16, 4096, 128]⟩
abbrev S384x384 : Shape := ⟨2, ![384, 384]⟩
abbrev S384 : Shape := ⟨1, ![384]⟩
abbrev S256x384 : Shape := ⟨2, ![256, 384]⟩
abbrev S256 : Shape := ⟨1, ![256]⟩
abbrev S_ : Shape := ⟨0, ![]⟩

class Facts : Prop where
  bcast_S_S16x1024x3 : S_.BroadcastsInDim S16x1024x3 (![] : Fin 0 → Fin S16x1024x3.rank)
  reducesTo_S16x1024x3_S_d0_1_2 : S16x1024x3.ReducesTo [0, 1, 2] S_
  h_S_ : 0 < S_.numel
  bcast_S_S16x4096x3 : S_.BroadcastsInDim S16x4096x3 (![] : Fin 0 → Fin S16x4096x3.rank)
  reducesTo_S16x4096x3_S_d0_1_2 : S16x4096x3.ReducesTo [0, 1, 2] S_
  bcast_S_S16x1024x256 : S_.BroadcastsInDim S16x1024x256 (![] : Fin 0 → Fin S16x1024x256.rank)
  reducesTo_S16x1024x256_S_d0_1_2 : S16x1024x256.ReducesTo [0, 1, 2] S_
  bcast_S_S16x4096x128 : S_.BroadcastsInDim S16x4096x128 (![] : Fin 0 → Fin S16x4096x128.rank)
  reducesTo_S16x4096x128_S_d0_1_2 : S16x4096x128.ReducesTo [0, 1, 2] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S256x384 : S_.BroadcastsInDim S256x384 (![] : Fin 0 → Fin S256x384.rank)
  reducesTo_S256x384_S_d0_1 : S256x384.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S384 .f32) (main_arg8 : FVec F S256x384 .f32) (main_arg9 : FVec F S256 .f32) (main_arg10 : FVec F S256 .f32) (main_arg11 : FVec F S256 .f32) (main_v33 : IVec S_ 1) : IVec S_ 1 :=
  let main_v34 : FVec F S384 .f32 := Host.absf main_arg7
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S256x384 .f32 := Host.absf main_arg8
  let main_cst_14 : FVec F S_ .f32 := constant S_ .f32 0x7F800000#32
  let main_v40 : FVec F S256x384 .f32 := broadcastInDim S256x384 ![] bcast_S_S256x384 main_cst_14
  let main_v41 : IVec S256x384 1 := cmpf .olt main_v39 main_v40
  let main_c_15 : IVec S_ 1 := constantI S_ 1 1#1
  let main_v42 : IVec S_ 1 := (fun x v => Host.reduce IntOp.andi x v reducesTo_S256x384_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_v48 main_v49 main_v50

def fn_part1 {F : FTy → Type} [FloatOps F] (main_arg4 : FVec F S384x384 .f32) (main_arg5 : FVec F S384 .f32) (main_arg6 : FVec F S384 .f32) (main_arg7 : FVec F S384 .f32) (main_arg8 : FVec F S256x384 .f32) (main_arg9 : FVec F S256 .f32) (main_arg10 : FVec F S256 .f32) (main_arg11 : FVec F S256 .f32) (main_v13 : IVec S_ 1) (main_v16 : IVec S16x4096x128 1) : IVec S_ 1 :=
  let main_c_5 : IVec S_ 1 := constantI S_ 1 1#1
  let main_v17 : IVec S_ 1 := (fun x v => Host.reduce IntOp.andi x v reducesTo_S16x4096x128_S_d0_1_2 h_S_) main_v16 main_c_5
  let main_v18 : IVec S_ 1 := andi main_v13 main_v17
  let main_v19 : FVec F S384x384 .f32 := Host.absf main_arg4
  let main_cst_6 : FVec F S_ .f32 := constant S_ .f32 0x7F800000#32
  let main_v20 : FVec F S384x384 .f32 := broadcastInDim S384x384 ![] bcast_S_S384x384 main_cst_6
  let main_v21 : IVec S384x384 1 := cmpf .olt main_v19 main_v20
  let main_c_7 : IVec S_ 1 := constantI S_ 1 1#1
  let main_v22 : IVec S_ 1 := (fun x v => Host.reduce IntOp.andi x v reducesTo_S384x384_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16x1024x3 .f32) (main_arg1 : FVec F S16x4096x3 .f32) (main_arg2 : FVec F S16x1024x256 .f32) (main_arg3 : FVec F S16x4096x128 .f32) (main_arg4 : FVec F S384x384 .f32) (main_arg5 : FVec F S384 .f32) (main_arg6 : FVec F S384 .f32) (main_arg7 : FVec F S384 .f32) (main_arg8 : FVec F S256x384 .f32) (main_arg9 : FVec F S256 .f32) (main_arg10 : FVec F S256 .f32) (main_arg11 : FVec F S256 .f32) : IVec S_ 1 :=
  let main_v0 : FVec F S16x1024x3 .f32 := Host.absf main_arg0
  let main_cst : FVec F S_ .f32 := constant S_ .f32 0x7F800000#32
  let main_v1 : FVec F S16x1024x3 .f32 := broadcastInDim S16x1024x3 ![] bcast_S_S16x1024x3 main_cst
  let main_v2 : IVec S16x1024x3 1 := cmpf .olt main_v0 main_v1
  let main_c : IVec S_ 1 := constantI S_ 1 1#1
  let main_v3 : IVec S_ 1 := (fun x v => Host.reduce IntOp.andi x v reducesTo_S16x1024x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  let main_v9 : FVec F S16x1024x256 .f32 := Host.absf main_arg2
  let main_cst_2 : FVec F S_ .f32 := constant S_ .f32 0x7F800000#32
  let main_v10 : FVec F S16x1024x256 .f32 := broadcastInDim S16x1024x256 ![] bcast_S_S16x1024x256 main_cst_2
  let main_v11 : IVec S16x1024x256 1 := cmpf .olt main_v9 main_v10
  let main_c_3 : IVec S_ 1 := constantI S_ 1 1#1
  let main_v12 : IVec S_ 1 := (fun x v => Host.reduce IntOp.andi x v reducesTo_S16x1024x256_S_d0_1_2 h_S_) main_v11 main_c_3
  let main_v13 : IVec S_ 1 := andi main_v8 main_v12
  let main_v14 : FVec F S16x4096x128 .f32 := Host.absf main_arg3
  let main_cst_4 : FVec F S_ .f32 := constant S_ .f32 0x7F800000#32
  let main_v15 : FVec F S16x4096x128 .f32 := broadcastInDim S16x4096x128 ![] bcast_S_S16x4096x128 main_cst_4
  let main_v16 : IVec S16x4096x128 1 := cmpf .olt main_v14 main_v15
  fn_part1 (F := F) main_arg4 main_arg5 main_arg6 main_arg7 main_arg8 main_arg9 main_arg10 main_arg11 main_v13 main_v16
-- ==== Kernel.lean ====
abbrev S16x1024x3 : Shape := ⟨3, ![16, 1024, 3]⟩
abbrev S16x4096x3 : Shape := ⟨3, ![16, 4096, 3]⟩
abbrev S16x1024x256 : Shape := ⟨3, ![16, 1024, 256]⟩
abbrev S16x4096x128 : Shape := ⟨3, ![16, 4096, 128]⟩
abbrev S384x384 : Shape := ⟨2, ![384, 384]⟩
abbrev S384 : Shape := ⟨1, ![384]⟩
abbrev S256x384 : Shape := ⟨2, ![256, 384]⟩
abbrev S256 : Shape := ⟨1, ![256]⟩
abbrev S384x256 : Shape := ⟨2, ![384, 256]⟩
abbrev S1x384 : Shape := ⟨2, ![1, 384]⟩
abbrev S1x256 : Shape := ⟨2, ![1, 256]⟩
abbrev S16x4096x384 : Shape := ⟨3, ![16, 4096, 384]⟩
abbrev S1x1024x3 : Shape := ⟨3, ![1, 1024, 3]⟩
abbrev S1x1024x256 : Shape := ⟨3, ![1, 1024, 256]⟩
abbrev S1x1024x128 : Shape := ⟨3, ![1, 1024, 128]⟩
abbrev S1x1024x384 : Shape := ⟨3, ![1, 1024, 384]⟩
abbrev S1024x3 : Shape := ⟨2, ![1024, 3]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S1024x384 : Shape := ⟨2, ![1024, 384]⟩
abbrev S_ : Shape := ⟨0, ![]⟩
abbrev S1x1x384 : Shape := ⟨3, ![1, 1, 384]⟩
abbrev S16x4096x256 : Shape := ⟨3, ![16, 4096, 256]⟩
abbrev S1x1x256 : Shape := ⟨3, ![1, 1, 256]⟩
abbrev S1x2048x256 : Shape := ⟨3, ![1, 2048, 256]⟩
abbrev S2048x256 : Shape := ⟨2, ![2048, 256]⟩

abbrev nBuf : Space → Nat
  | .hbm => 55
  | .vmem => 30
  | .smem => 0
  | _ => 0

abbrev bufTy : (tb : Table) → Fin (tcTables nBuf tb) → BufTy
  | .hbm, ⟨0, _⟩ => ⟨S16x1024x3, .f32⟩
  | .hbm, ⟨1, _⟩ => ⟨S16x4096x3, .f32⟩
  | .hbm, ⟨2, _⟩ => ⟨S16x1024x256, .f32⟩
  | .hbm, ⟨3, _⟩ => ⟨S16x4096x128, .f32⟩
  | .hbm, ⟨4, _⟩ => ⟨S384x384, .f32⟩
  | .hbm, ⟨5, _⟩ => ⟨S384, .f32⟩
  | .hbm, ⟨6, _⟩ => ⟨S384, .f32⟩
  | .hbm, ⟨7, _⟩ => ⟨S384, .f32⟩
  | .hbm, ⟨8, _⟩ => ⟨S256x384, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S384x384, .f32⟩
  | .hbm, ⟨13, _⟩ => ⟨S384x256, .f32⟩
  | .hbm, ⟨14, _⟩ => ⟨S1x384, .f32⟩
  | .hbm, ⟨15, _⟩ => ⟨S1x256, .f32⟩
  | .hbm, ⟨16, _⟩ => ⟨S1x384, .f32⟩
  | .hbm, ⟨17, _⟩ => ⟨S1x384, .f32⟩
  | .hbm, ⟨18, _⟩ => ⟨S1x256, .f32⟩
  | .hbm, ⟨19, _⟩ => ⟨S1x256, .f32⟩
  | .hbm, ⟨20, _⟩ => ⟨S16x4096x384, .f32⟩
  | .hbm, ⟨21, _⟩ => ⟨S_, .f32⟩
  | .hbm, ⟨22, _⟩ => ⟨S384, .f32⟩
  | .hbm, ⟨23, _⟩ => ⟨S_, .f32⟩
  | .hbm, ⟨24, _⟩ => ⟨S384, .f32⟩
  | .hbm, ⟨25, _⟩ => ⟨S384, .f32⟩
  | .hbm, ⟨26, _⟩ => ⟨S1x384, .f32⟩
  | .hbm, ⟨27, _⟩ => ⟨S1x1x384, .f32⟩
  | .hbm, ⟨28, _⟩ => ⟨S16x4096x384, .f32⟩
  | .hbm, ⟨29, _⟩ => ⟨S16x4096x384, .f32⟩
  | .hbm, ⟨30, _⟩ => ⟨S16x4096x384, .f32⟩
  | .hbm, ⟨31, _⟩ => ⟨S_, .f32⟩
  | .hbm, ⟨32, _⟩ => ⟨S384, .f32⟩
  | .hbm, ⟨33, _⟩ => ⟨S_, .f32⟩
  | .hbm, ⟨34, _⟩ => ⟨S384, .f32⟩
  | .hbm, ⟨35, _⟩ => ⟨S384, .f32⟩
  | .hbm, ⟨36, _⟩ => ⟨S1x384, .f32⟩
  | .hbm, ⟨37, _⟩ => ⟨S16x4096x256, .f32⟩
  | .hbm, ⟨38, _⟩ => ⟨S_, .f32⟩
  | .hbm, ⟨39, _⟩ => ⟨S256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S1x1x256, .f32⟩
  | .hbm, ⟨45, _⟩ => ⟨S16x4096x256, .f32⟩
  | .hbm, ⟨46, _⟩ => ⟨S16x4096x256, .f32⟩
  | .hbm, ⟨47, _⟩ => ⟨S16x4096x256, .f32⟩
  | .hbm, ⟨48, _⟩ => ⟨S_, .f32⟩
  | .hbm, ⟨49, _⟩ => ⟨S256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S1x256, .f32⟩
  | .hbm, ⟨54, _⟩ => ⟨S16x4096x256, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x128, .f32⟩
  | .local _ .vmem, ⟨7, _⟩ => ⟨S1x1024x128, .f32⟩
  | .local _ .vmem, ⟨8, _⟩ => ⟨S384x384, .f32⟩
  | .local _ .vmem, ⟨9, _⟩ => ⟨S1x384, .f32⟩
  | .local _ .vmem, ⟨10, _⟩ => ⟨S1x1024x384, .f32⟩
  | .local _ .vmem, ⟨11, _⟩ => ⟨S1x1024x384, .f32⟩
  | .local _ .vmem, ⟨12, _⟩ => ⟨S1x1024x384, .f32⟩
  | .local _ .vmem, ⟨13, _⟩ => ⟨S1x1024x384, .f32⟩
  | .local _ .vmem, ⟨14, _⟩ => ⟨S1x384, .f32⟩
  | .local _ .vmem, ⟨15, _⟩ => ⟨S1x384, .f32⟩
  | .local _ .vmem, ⟨16, _⟩ => ⟨S1x384, .f32⟩
  | .local _ .vmem, ⟨17, _⟩ => ⟨S1x384, .f32⟩
  | .local _ .vmem, ⟨18, _⟩ => ⟨S384x256, .f32⟩
  | .local _ .vmem, ⟨19, _⟩ => ⟨S1x256, .f32⟩
  | .local _ .vmem, ⟨20, _⟩ => ⟨S1x1024x256, .f32⟩
  | .local _ .vmem, ⟨21, _⟩ => ⟨S1x1024x256, .f32⟩
  | .local _ .vmem, ⟨22, _⟩ => ⟨S1x2048x256, .f32⟩
  | .local _ .vmem, ⟨23, _⟩ => ⟨S1x2048x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x2048x256, .f32⟩
  | .local _ .vmem, ⟨29, _⟩ => ⟨S1x2048x256, .f32⟩
  | _, _ => ⟨S16x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S384x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S384x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1024x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![16, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x2048x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  transposes_S384x384_S384x384_1_0 : S384x384.Transposes [1, 0] S384x384
  transposes_S256x384_S384x256_1_0 : S256x384.Transposes [1, 0] S384x256
  shapeCasts_S384_S1x384 : S384.ShapeCasts S1x384
  shapeCasts_S256_S1x256 : S256.ShapeCasts S1x256
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x3_S1024 : S1024x3.Reduces [1] S1024
  shapeCasts_S1024_S1024x1 : S1024.ShapeCasts S1024x1
  bitsLt_bf16_f32 : FTy.bits .bf16 < FTy.bits .f32
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  concatenates_S1024x128_S1024x256_S1024x384_d1 : Shape.Concatenates [S1024x128, S1024x256] S1024x384 1
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1024x384 : S1x384.Broadcasts S1024x384
  inb_S1x1024x384_S1x1024x384_0_0_0 : ∀ a, (![0, 0, 0] : Fin 3 → Nat) a + S1x1024x384.size a ≤ S1x1024x384.size a
  h_S1x1024x384 : 0 < S1x1024x384.numel
  shapeCasts_S1x1024x384_S1024x384 : S1x1024x384.ShapeCasts S1024x384
  shapeCasts_S1024x384_S1x1024x384 : S1024x384.ShapeCasts S1x1024x384
  reducesTo_S16x4096x384_S384_d0_1 : S16x4096x384.ReducesTo [0, 1] S384
  h_S_ : 0 < S_.numel
  bcast_S_S384 : S_.BroadcastsInDim S384 (![] : Fin 0 → Fin S384.rank)
  shapeCasts_S1x384_S1x1x384 : S1x384.ShapeCasts S1x1x384
  bcast_S1x1x384_S16x4096x384_0_1_2 : S1x1x384.BroadcastsInDim S16x4096x384 (![0, 1, 2] : Fin 3 → Fin S16x4096x384.rank)
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S1024x256_S1x1024x256 : S1024x256.ShapeCasts S1x1024x256
  reducesTo_S16x4096x256_S256_d0_1 : S16x4096x256.ReducesTo [0, 1] S256
  bcast_S_S256 : S_.BroadcastsInDim S256 (![] : Fin 0 → Fin S256.rank)
  shapeCasts_S1x256_S1x1x256 : S1x256.ShapeCasts S1x1x256
  bcast_S1x1x256_S16x4096x256_0_1_2 : S1x1x256.BroadcastsInDim S16x4096x256 (![0, 1, 2] : Fin 3 → Fin S16x4096x256.rank)
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  broadcasts_S1x256_S2048x256 : S1x256.Broadcasts S2048x256
  shapeCasts_S2048x256_S1x2048x256 : S2048x256.ShapeCasts S1x2048x256
  dot_S1024x3_S1024x3_S1024x1024_1_1_0_0_n_n_wf : DotDims.WF S1024x3 S1024x3 S1024x1024 [1] [1] [0] [0] [] []
  dot_S1024x1024_S1024x256_S1024x256_1_0_0_1_n_n_wf : DotDims.WF S1024x1024 S1024x256 S1024x256 [1] [0] [0] [1] [] []
  dot_S1024x384_S384x384_S1024x384_1_0_0_1_n_n_wf : DotDims.WF S1024x384 S384x384 S1024x384 [1] [0] [0] [1] [] []
  dot_S1024x384_S384x256_S1024x256_1_0_0_1_n_n_wf : DotDims.WF S1024x384 S384x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S16x1024x3.size a
  hwx0_0 : ∀ i : grid0.Coords, EltTy.bits .f32 = 32 ∨ (Rect.block (s := S16x1024x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S16x4096x3.size a
  hwx0_1 : ∀ i : grid0.Coords, EltTy.bits .f32 = 32 ∨ (Rect.block (s := S16x4096x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S16x1024x256.size a
  hwx0_2 : ∀ i : grid0.Coords, EltTy.bits .f32 = 32 ∨ (Rect.block (s := S16x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S16x4096x128.size a
  hwx0_3 : ∀ i : grid0.Coords, EltTy.bits .f32 = 32 ∨ (Rect.block (s := S16x4096x128) S1x1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x384.size a ≤ S384x384.size a
  hwx0_4 : ∀ i : grid0.Coords, EltTy.bits .f32 = 32 ∨ (Rect.block (s := S384x384) S384x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x384.size a ≤ S16x4096x384.size a
  hwx0_6 : ∀ i : grid0.Coords, EltTy.bits .f32 = 32 ∨ (Rect.block (s := S16x4096x384) S1x1024x384.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x384.size a ≤ S16x4096x384.size a
  hwx1_0 : ∀ i : grid1.Coords, EltTy.bits .f32 = 32 ∨ (Rect.block (s := S16x4096x384) S1x1024x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x384.size a ≤ S1x384.size a
  hwx1_1 : ∀ i : grid1.Coords, EltTy.bits .f32 = 32 ∨ (Rect.block (s := S1x384) S1x384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x384.size a ≤ S1x384.size a
  hwx1_2 : ∀ i : grid1.Coords, EltTy.bits .f32 = 32 ∨ (Rect.block (s := S1x384) S1x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x384.size a ≤ S1x384.size a
  hwx1_3 : ∀ i : grid1.Coords, EltTy.bits .f32 = 32 ∨ (Rect.block (s := S1x384) S1x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384x256.size a ≤ S384x256.size a
  hwx1_5 : ∀ i : grid1.Coords, EltTy.bits .f32 = 32 ∨ (Rect.block (s := S384x256) S384x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1024x256.size a ≤ S16x4096x256.size a
  hwx1_7 : ∀ i : grid1.Coords, EltTy.bits .f32 = 32 ∨ (Rect.block (s := S16x4096x256) S1x1024x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x256.size a ≤ S16x4096x256.size a
  hwx2_0 : ∀ i : grid2.Coords, EltTy.bits .f32 = 32 ∨ (Rect.block (s := S16x4096x256) S1x2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x2048x256.size a ≤ S16x4096x256.size a
  hwx2_5 : ∀ i : grid2.Coords, EltTy.bits .f32 = 32 ∨ (Rect.block (s := S16x4096x256) S1x2048x256.size (cc2_transform_5 i) (hinb2_5 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x384_S384x384_S1024x384_1_0_0_1_n_n : DotDims S1024x384 S384x384 S1024x384 where
  lhsContracting := [1]
  rhsContracting := [0]
  lhsNonContracting := [0]
  rhsNonContracting := [1]
  lhsBatch := []
  rhsBatch := []
  wf := dot_S1024x384_S384x384_S1024x384_1_0_0_1_n_n_wf
def dot_S1024x384_S384x256_S1024x256_1_0_0_1_n_n : DotDims S1024x384 S384x256 S1024x256 where
  lhsContracting := [1]
  rhsContracting := [0]
  lhsNonContracting := [0]
  rhsNonContracting := [1]
  lhsBatch := []
  rhsBatch := []
  wf := dot_S1024x384_S384x256_S1024x256_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S384x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024x384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8) S1x1024x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S384x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S1x1024x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v21) S1x2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S1x2048x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S16x1024x3 : Shape := ⟨3, ![16, 1024, 3]⟩
abbrev S16x4096x3 : Shape := ⟨3, ![16, 4096, 3]⟩
abbrev S16x1024x256 : Shape := ⟨3, ![16, 1024, 256]⟩
abbrev S16x4096x128 : Shape := ⟨3, ![16, 4096, 128]⟩
abbrev S384x384 : Shape := ⟨2, ![384, 384]⟩
abbrev S384 : Shape := ⟨1, ![384]⟩
abbrev S256x384 : Shape := ⟨2, ![256, 384]⟩
abbrev S256 : Shape := ⟨1, ![256]⟩
abbrev S_ : Shape := ⟨0, ![]⟩
abbrev S16x4096 : Shape := ⟨2, ![16, 4096]⟩
abbrev S16x1024 : Shape := ⟨2, ![16, 1024]⟩
abbrev S16x4096x1024 : Shape := ⟨3, ![16, 4096, 1024]⟩
abbrev S16x4096x1 : Shape := ⟨3, ![16, 4096, 1]⟩
abbrev S16x1x1024 : Shape := ⟨3, ![16, 1, 1024]⟩
abbrev S16x4096x256 : Shape := ⟨3, ![16, 4096, 256]⟩
abbrev S16x4096x384 : Shape := ⟨3, ![16, 4096, 384]⟩
abbrev S1x1x384 : Shape := ⟨3, ![1, 1, 384]⟩
abbrev S1x1x256 : Shape := ⟨3, ![1, 1, 256]⟩

abbrev nBuf : Space → Nat
  | .hbm => 110
  | .vmem => 0
  | .smem => 0
  | _ => 0

abbrev bufTy : (tb : Table) → Fin (tcTables nBuf tb) → BufTy
  | .hbm, ⟨0, _⟩ => ⟨S16x1024x3, .f32⟩
  | .hbm, ⟨1, _⟩ => ⟨S16x4096x3, .f32⟩
  | .hbm, ⟨2, _⟩ => ⟨S16x1024x256, .f32⟩
  | .hbm, ⟨3, _⟩ => ⟨S16x4096x128, .f32⟩
  | .hbm, ⟨4, _⟩ => ⟨S384x384, .f32⟩
  | .hbm, ⟨5, _⟩ => ⟨S384, .f32⟩
  | .hbm, ⟨6, _⟩ => ⟨S384, .f32⟩
  | .hbm, ⟨7, _⟩ => ⟨S384, .f32⟩
  | .hbm, ⟨8, _⟩ => ⟨S256x384, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S16x4096x3, .f32⟩
  | .hbm, ⟨13, _⟩ => ⟨S_, .f32⟩
  | .hbm, ⟨14, _⟩ => ⟨S16x4096, .f32⟩
  | .hbm, ⟨15, _⟩ => ⟨S16x1024x3, .f32⟩
  | .hbm, ⟨16, _⟩ => ⟨S_, .f32⟩
  | .hbm, ⟨17, _⟩ => ⟨S16x1024, .f32⟩
  | .hbm, ⟨18, _⟩ => ⟨S16x4096x1024, .f32⟩
  | .hbm, ⟨19, _⟩ => ⟨S16x4096x1, .f32⟩
  | .hbm, ⟨20, _⟩ => ⟨S16x1x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S_, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S_, .f32⟩
  | .hbm, ⟨29, _⟩ => ⟨S16x4096x1024, .f32⟩
  | .hbm, ⟨30, _⟩ => ⟨S16x4096x1024, .f32⟩
  | .hbm, ⟨31, _⟩ => ⟨S_, .f32⟩
  | .hbm, ⟨32, _⟩ => ⟨S16x4096x1024, .f32⟩
  | .hbm, ⟨33, _⟩ => ⟨S16x4096x1024, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S16x4096x1024, .f32⟩
  | .hbm, ⟨38, _⟩ => ⟨S16x4096x1024, .f32⟩
  | .hbm, ⟨39, _⟩ => ⟨S16x4096x256, .f32⟩
  | .hbm, ⟨40, _⟩ => ⟨S16x4096x384, .f32⟩
  | .hbm, ⟨41, _⟩ => ⟨S16x4096x384, .f32⟩
  | .hbm, ⟨42, _⟩ => ⟨S1x1x384, .f32⟩
  | .hbm, ⟨43, _⟩ => ⟨S16x4096x384, .f32⟩
  | .hbm, ⟨44, _⟩ => ⟨S16x4096x384, .f32⟩
  | .hbm, ⟨45, _⟩ => ⟨S_, .f32⟩
  | .hbm, ⟨46, _⟩ => ⟨S384, .f32⟩
  | .hbm, ⟨47, _⟩ => ⟨S1x1x384, .f32⟩
  | .hbm, ⟨48, _⟩ => ⟨S_, .f32⟩
  | .hbm, ⟨49, _⟩ => ⟨S1x1x384, .f32⟩
  | .hbm, ⟨50, _⟩ => ⟨S1x1x384, .f32⟩
  | .hbm, ⟨51, _⟩ => ⟨S16x4096x384, .f32⟩
  | .hbm, ⟨52, _⟩ => ⟨S16x4096x384, .f32⟩
  | .hbm, ⟨53, _⟩ => ⟨S16x4096x384, .f32⟩
  | .hbm, ⟨54, _⟩ => ⟨S_, .f32⟩
  | .hbm, ⟨55, _⟩ => ⟨S384, .f32⟩
  | .hbm, ⟨56, _⟩ => ⟨S1x1x384, .f32⟩
  | .hbm, ⟨57, _⟩ => ⟨S_, .f32⟩
  | .hbm, ⟨58, _⟩ => ⟨S1x1x384, .f32⟩
  | .hbm, ⟨59, _⟩ => ⟨S1x1x384, .f32⟩
  | .hbm, ⟨60, _⟩ => ⟨S16x4096x384, .f32⟩
  | .hbm, ⟨61, _⟩ => ⟨S16x4096x384, .f32⟩
  | .hbm, ⟨62, _⟩ => ⟨S_, .f32⟩
  | .hbm, ⟨63, _⟩ => ⟨S1x1x384, .f32⟩
  | .hbm, ⟨64, _⟩ => ⟨S1x1x384, .f32⟩
  | .hbm, ⟨65, _⟩ => ⟨S1x1x384, .f32⟩
  | .hbm, ⟨66, _⟩ => ⟨S16x4096x384, .f32⟩
  | .hbm, ⟨67, _⟩ => ⟨S16x4096x384, .f32⟩
  | .hbm, ⟨68, _⟩ => ⟨S1x1x384, .f32⟩
  | .hbm, ⟨69, _⟩ => ⟨S16x4096x384, .f32⟩
  | .hbm, ⟨70, _⟩ => ⟨S16x4096x384, .f32⟩
  | .hbm, ⟨71, _⟩ => ⟨S1x1x384, .f32⟩
  | .hbm, ⟨72, _⟩ => ⟨S16x4096x384, .f32⟩
  | .hbm, ⟨73, _⟩ => ⟨S16x4096x384, .f32⟩
  | .hbm, ⟨74, _⟩ => ⟨S_, .f32⟩
  | .hbm, ⟨75, _⟩ => ⟨S16x4096x384, .f32⟩
  | .hbm, ⟨76, _⟩ => ⟨S16x4096x384, .f32⟩
  | .hbm, ⟨77, _⟩ => ⟨S16x4096x256, .f32⟩
  | .hbm, ⟨78, _⟩ => ⟨S1x1x256, .f32⟩
  | .hbm, ⟨79, _⟩ => ⟨S16x4096x256, .f32⟩
  | .hbm, ⟨80, _⟩ => ⟨S16x4096x256, .f32⟩
  | .hbm, ⟨81, _⟩ => ⟨S_, .f32⟩
  | .hbm, ⟨82, _⟩ => ⟨S256, .f32⟩
  | .hbm, ⟨83, _⟩ => ⟨S1x1x256, .f32⟩
  | .hbm, ⟨84, _⟩ => ⟨S_, .f32⟩
  | .hbm, ⟨85, _⟩ => ⟨S1x1x256, .f32⟩
  | .hbm, ⟨86, _⟩ => ⟨S1x1x256, .f32⟩
  | .hbm, ⟨87, _⟩ => ⟨S16x4096x256, .f32⟩
  | .hbm, ⟨88, _⟩ => ⟨S16x4096x256, .f32⟩
  | .hbm, ⟨89, _⟩ => ⟨S16x4096x256, .f32⟩
  | .hbm, ⟨90, _⟩ => ⟨S_, .f32⟩
  | .hbm, ⟨91, _⟩ => ⟨S256, .f32⟩
  | .hbm, ⟨92, _⟩ => ⟨S1x1x256, .f32⟩
  | .hbm, ⟨93, _⟩ => ⟨S_, .f32⟩
  | .hbm, ⟨94, _⟩ => ⟨S1x1x256, .f32⟩
  | .hbm, ⟨95, _⟩ => ⟨S1x1x256, .f32⟩
  | .hbm, ⟨96, _⟩ => ⟨S16x4096x256, .f32⟩
  | .hbm, ⟨97, _⟩ => ⟨S16x4096x256, .f32⟩
  | .hbm, ⟨98, _⟩ => ⟨S_, .f32⟩
  | .hbm, ⟨99, _⟩ => ⟨S1x1x256, .f32⟩
  | .hbm, ⟨100, _⟩ => ⟨S1x1x256, .f32⟩
  | .hbm, ⟨101, _⟩ => ⟨S1x1x256, .f32⟩
  | .hbm, ⟨102, _⟩ => ⟨S16x4096x256, .f32⟩
  | .hbm, ⟨103, _⟩ => ⟨S16x4096x256, .f32⟩
  | .hbm, ⟨104, _⟩ => ⟨S1x1x256, .f32⟩
  | .hbm, ⟨105, _⟩ => ⟨S16x4096x256, .f32⟩
  | .hbm, ⟨106, _⟩ => ⟨S16x4096x256, .f32⟩
  | .hbm, ⟨107, _⟩ => ⟨S1x1x256, .f32⟩
  | .hbm, ⟨108, _⟩ => ⟨S16x4096x256, .f32⟩
  | .hbm, ⟨109, _⟩ => ⟨S16x4096x256, .f32⟩
  | _, _ => ⟨S16x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call0_cst : Ref sig .tc := ⟨.hbm, 74, rfl⟩
abbrev main_call0_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  reducesTo_S16x1024x3_S16x1024_d2 : S16x1024x3.ReducesTo [2] S16x1024
  bcast_S16x4096_S16x4096x1_0_1 : S16x4096.BroadcastsInDim S16x4096x1 (![0, 1] : Fin 2 → Fin S16x4096x1.rank)
  bcast_S16x1024_S16x1x1024_0_2 : S16x1024.BroadcastsInDim S16x1x1024 (![0, 2] : Fin 2 → Fin S16x1x1024.rank)
  bcast_S16x4096x1_S16x4096x1024_0_1_2 : S16x4096x1.BroadcastsInDim S16x4096x1024 (![0, 1, 2] : Fin 3 → Fin S16x4096x1024.rank)
  bcast_S16x1x1024_S16x4096x1024_0_1_2 : S16x1x1024.BroadcastsInDim S16x4096x1024 (![0, 1, 2] : Fin 3 → Fin S16x4096x1024.rank)
  bcast_S_S16x4096x1024 : S_.BroadcastsInDim S16x4096x1024 (![] : Fin 0 → Fin S16x4096x1024.rank)
  reducesTo_S16x4096x1024_S16x4096_d2 : S16x4096x1024.ReducesTo [2] S16x4096
  concatenates_S16x4096x128_S16x4096x256_S16x4096x384_d2 : Shape.Concatenates [S16x4096x128, S16x4096x256] S16x4096x384 2
  bcast_S384_S1x1x384_2 : S384.BroadcastsInDim S1x1x384 (![2] : Fin 1 → Fin S1x1x384.rank)
  bcast_S1x1x384_S16x4096x384_0_1_2 : S1x1x384.BroadcastsInDim S16x4096x384 (![0, 1, 2] : Fin 3 → Fin S16x4096x384.rank)
  reducesTo_S16x4096x384_S384_d0_1 : S16x4096x384.ReducesTo [0, 1] S384
  bcast_S_S1x1x384 : S_.BroadcastsInDim S1x1x384 (![] : Fin 0 → Fin S1x1x384.rank)
  bcast_S_S16x4096x384 : S_.BroadcastsInDim S16x4096x384 (![] : Fin 0 → Fin S16x4096x384.rank)
  bcast_S256_S1x1x256_2 : S256.BroadcastsInDim S1x1x256 (![2] : Fin 1 → Fin S1x1x256.rank)
  bcast_S1x1x256_S16x4096x256_0_1_2 : S1x1x256.BroadcastsInDim S16x4096x256 (![0, 1, 2] : Fin 3 → Fin S16x4096x256.rank)
  reducesTo_S16x4096x256_S256_d0_1 : S16x4096x256.ReducesTo [0, 1] S256
  bcast_S_S1x1x256 : S_.BroadcastsInDim S1x1x256 (![] : Fin 0 → Fin S1x1x256.rank)
  dot_S16x4096x3_S16x1024x3_S16x4096x1024_2_2_1_1_0_0_wf : DotDims.WF S16x4096x3 S16x1024x3 S16x4096x1024 [2] [2] [1] [1] [0] [0]
  dot_S16x4096x1024_S16x1024x256_S16x4096x256_2_1_1_2_0_0_wf : DotDims.WF S16x4096x1024 S16x1024x256 S16x4096x256 [2] [1] [1] [2] [0] [0]
  dot_S16x4096x384_S384x384_S16x4096x384_2_1_01_0_n_n_wf : DotDims.WF S16x4096x384 S384x384 S16x4096x384 [2] [1] [0, 1] [0] [] []
  dot_S16x4096x384_S256x384_S16x4096x256_2_1_01_0_n_n_wf : DotDims.WF S16x4096x384 S256x384 S16x4096x256 [2] [1] [0, 1] [0] [] []

variable [Facts₀]

def dot_S16x4096x3_S16x1024x3_S16x4096x1024_2_2_1_1_0_0 : DotDims S16x4096x3 S16x1024x3 S16x4096x1024 where
  lhsContracting := [2]
  rhsContracting := [2]
  lhsNonContracting := [1]
  rhsNonContracting := [1]
  lhsBatch := [0]
  rhsBatch := [0]
  wf := dot_S16x4096x3_S16x1024x3_S16x4096x1024_2_2_1_1_0_0_wf
def dot_S16x4096x1024_S16x1024x256_S16x4096x256_2_1_1_2_0_0 : DotDims S16x4096x1024 S16x1024x256 S16x4096x256 where
  lhsContracting := [2]
  rhsContracting := [1]
  lhsNonContracting := [1]
  rhsNonContracting := [2]
  lhsBatch := [0]
  rhsBatch := [0]
  wf := dot_S16x4096x1024_S16x1024x256_S16x4096x256_2_1_1_2_0_0_wf
def dot_S16x4096x384_S384x384_S16x4096x384_2_1_01_0_n_n : DotDims S16x4096x384 S384x384 S16x4096x384 where
  lhsContracting := [2]
  rhsContracting := [1]
  lhsNonContracting := [0, 1]
  rhsNonContracting := [0]
  lhsBatch := []
  rhsBatch := []
  wf := dot_S16x4096x384_S384x384_S16x4096x384_2_1_01_0_n_n_wf
def dot_S16x4096x384_S256x384_S16x4096x256_2_1_01_0_n_n : DotDims S16x4096x384 S256x384 S16x4096x256 where
  lhsContracting := [2]
  rhsContracting := [1]
  lhsNonContracting := [0, 1]
  rhsNonContracting := [0]
  lhsBatch := []
  rhsBatch := []
  wf := dot_S16x4096x384_S256x384_S16x4096x256_2_1_01_0_n_n_wf

class Facts : Prop extends Facts₀ where

variable [Facts]
-- ==== Proof.Spec.lean ====
/-
  The mathematics both programs compute, written once over families indexed by coordinates.

  Sixteen clouds; in cloud `b` a sparse set of 1024 points `xd b m` with features `fd b m` (256 each) and a dense
  set of 4096 points `xu b n` with features `fu b n` (128 each). Every dense point takes from the sparse ones of its
  cloud a weighted mean of their features, the weight of sparse point `m` being the reciprocal of (squared distance + ε)
  divided by the sum of those reciprocals over `m`, the squared distance written `|u|² + |d|² − 2·⟨u, d⟩`. Its own
  features and that mean, laid side by side (384 numbers), go through a linear layer, a batch normalisation over all
  16 · 4096 points with learned scale and shift, a rectifier, a second linear layer and a second normalisation.

  What one dense point needs of its cloud is written first, point by point (`…Pt`); the arrays are those laid out
  over `(b, n)`. A normalisation needs, per channel, a sum over every point: `colSum384` / `colSum256`, the host's
  reduction over the two point axes, which both programs take by the same operation, so it is never opened.

  Everything is over the extended reals; the constants are kept as the binary words the programs spell.
-/
import Idealize.ShloMosaic.PureOps.Ideal
import Idealize.ShloMosaic.Lib.ValueIdx

noncomputable section

open scoped BigOperators

namespace PointFeature

open Idealize.ShloMosaic Idealize.ShloMosaic.ValueIdx

/-! ## Arrays as families over coordinates -/

/-- A rank-3 array read by coordinates. -/
abbrev fam3 {a b c : Nat} (A : (⟨3, ![a, b, c]⟩ : Shape).Idx → EReal) : Fin a → Fin b → Fin c → EReal :=
  fun p q r => A (ix3 p q r)
/-- A rank-2 array read by coordinates. -/
abbrev fam2 {a b : Nat} (A : (⟨2, ![a, b]⟩ : Shape).Idx → EReal) : Fin a → Fin b → EReal :=
  fun p q => A (ix2 p q)
/-- A rank-2 array read by coordinates, the other way round (a transposed weight matrix). -/
abbrev fam2T {a b : Nat} (A : (⟨2, ![a, b]⟩ : Shape).Idx → EReal) : Fin b → Fin a → EReal :=
  fun q p => A (ix2 p q)
/-- A rank-1 array read by its coordinate. -/
abbrev fam1 {a : Nat} (A : (⟨1, ![a]⟩ : Shape).Idx → EReal) : Fin a → EReal :=
  fun p => A (ix1 p)
/-- A one-row matrix read along its row. -/
abbrev row {a : Nat} (A : (⟨2, ![1, a]⟩ : Shape).Idx → EReal) : Fin a → EReal :=
  fun p => A (ix2 0 p)
/-- A family over three coordinates as a rank-3 array. -/
abbrev arr3 {a b c : Nat} (f : Fin a → Fin b → Fin c → EReal) : (⟨3, ![a, b, c]⟩ : Shape).Idx → EReal :=
  fun j => f (j 0) (j 1) (j 2)

theorem arr3_fam3 {a b c : Nat} (A : (⟨3, ![a, b, c]⟩ : Shape).Idx → EReal) : arr3 (fam3 A) = A :=
  funext fun j => congrArg A (eq_ix3 j).symm

/-! ## The constants, as the programs spell them -/

/-- `2.0`. -/
abbrev cTwo : EReal := Ideal.ofBits .f32 0x40000000#32
/-- `1.0`. -/
abbrev cOne : EReal := Ideal.ofBits .f32 0x3F800000#32
/-- The f32 nearest `1e-8`, added to a squared distance. -/
abbrev cEpsDist : EReal := Ideal.ofBits .f32 0x322BCC77#32
/-- The f32 nearest `1e-5`, added to a variance. -/
abbrev cEpsNorm : EReal := Ideal.ofBits .f32 0x3727C5AC#32
/-- `65536.0`, the number of points `16 · 4096`. -/
abbrev cCount : EReal := Ideal.ofBits .f32 0x47800000#32
/-- `0.0` as its word (the rectifier's floor). -/
abbrev cZero : EReal := Ideal.ofBits .f32 0x00000000#32

/-! ## One dense point against the sparse points of its cloud -/

/-- `|p|²`. -/
def sqLen (p : Fin 3 → EReal) : EReal := ∑ k : Fin 3, p k * p k

/-- `⟨u, p⟩`. -/
def dot3 (u p : Fin 3 → EReal) : EReal := ∑ k : Fin 3, u k * p k

/-- `1 / (|u|² + |d_m|² − 2⟨u, d_m⟩ + ε)`. -/
def invDist (dn : Fin 1024 → Fin 3 → EReal) (u : Fin 3 → EReal) (m : Fin 1024) : EReal :=
  Ideal.div cOne (((sqLen u + sqLen (dn m)) - cTwo * dot3 u (dn m)) + cEpsDist)

/-- The sum of those reciprocals over the sparse points. -/
def invDistSum (dn : Fin 1024 → Fin 3 → EReal) (u : Fin 3 → EReal) : EReal := ∑ m : Fin 1024, invDist dn u m

/-- The weight of sparse point `m`. -/
def weight (dn : Fin 1024 → Fin 3 → EReal) (u : Fin 3 → EReal) (m : Fin 1024) : EReal :=
  Ideal.div (invDist dn u m) (invDistSum dn u)

/-- The weighted mean of the sparse features. -/
def interp (dn : Fin 1024 → Fin 3 → EReal) (u : Fin 3 → EReal) (fdn : Fin 1024 → Fin 256 → EReal) (d : Fin 256) : EReal :=
  ∑ m : Fin 1024, weight dn u m * fdn m d

/-- The point's own 128 features, then the 256 interpolated ones. -/
def joined (dn : Fin 1024 → Fin 3 → EReal) (u : Fin 3 → EReal) (fdn : Fin 1024 → Fin 256 → EReal) (fuu : Fin 128 → EReal)
    (c : Fin 384) : EReal :=
  if h : c.val < 128 then fuu ⟨c.val, h⟩ else interp dn u fdn ⟨c.val - 128, by omega⟩

/-- A linear layer on 384 inputs: `∑ c, a c · W d c + bias d`. -/
def linear {D : Nat} (a : Fin 384 → EReal) (W : Fin D → Fin 384 → EReal) (bias : Fin D → EReal) (d : Fin D) : EReal :=
  (∑ c : Fin 384, a c * W d c) + bias d

/-- The first layer at one point, before normalisation. -/
def hiddenPt1 (dn : Fin 1024 → Fin 3 → EReal) (u : Fin 3 → EReal) (fdn : Fin 1024 → Fin 256 → EReal) (fuu : Fin 128 → EReal)
    (W1 : Fin 384 → Fin 384 → EReal) (b1 : Fin 384 → EReal) : Fin 384 → EReal :=
  linear (joined dn u fdn fuu) W1 b1

/-- Centre by `mu`, scale by `1/√(var + ε)`, then the learned scale and shift: one point's channels. -/
def affinePt {C : Nat} (x mu var g be : Fin C → EReal) (d : Fin C) : EReal :=
  (x d - mu d) * Ideal.rsqrt (var d + cEpsNorm) * g d + be d

/-- The rectifier. -/
def reluPt (x : Fin 384 → EReal) (c : Fin 384) : EReal := max (x c) cZero

/-- The second layer at one point from the first layer's output there and the first normalisation's statistics. -/
def hiddenPt2 (x mu var g be : Fin 384 → EReal) (W2 : Fin 256 → Fin 384 → EReal) (b2 : Fin 256 → EReal) : Fin 256 → EReal :=
  linear (reluPt (affinePt x mu var g be)) W2 b2

/-! ## Over all points -/

/-- The first layer's output over all points. -/
def hidden1 (xd : Fin 16 → Fin 1024 → Fin 3 → EReal) (xu : Fin 16 → Fin 4096 → Fin 3 → EReal)
    (fd : Fin 16 → Fin 1024 → Fin 256 → EReal) (fu : Fin 16 → Fin 4096 → Fin 128 → EReal)
    (W1 : Fin 384 → Fin 384 → EReal) (b1 : Fin 384 → EReal) : Fin 16 → Fin 4096 → Fin 384 → EReal :=
  fun b n => hiddenPt1 (xd b) (xu b n) (fd b) (fu b n) W1 b1

section Norm
variable {C : Nat} (cs : (Fin 16 → Fin 4096 → Fin C → EReal) → Fin C → EReal)

/-- A channel's mean over the points. -/
def colMean (h : Fin 16 → Fin 4096 → Fin C → EReal) (d : Fin C) : EReal :=
  Ideal.div (cs h d) cCount

/-- The squared deviation from a given per-channel value. -/
def sqDev (h : Fin 16 → Fin 4096 → Fin C → EReal) (mu : Fin C → EReal) : Fin 16 → Fin 4096 → Fin C → EReal :=
  fun b n d => (h b n d - mu d) * (h b n d - mu d)

/-- A channel's (biased) variance over the points. -/
def colVar (h : Fin 16 → Fin 4096 → Fin C → EReal) (d : Fin C) : EReal :=
  Ideal.div (cs (sqDev h (colMean cs h)) d) cCount

/-- Batch normalisation with the statistics of `h` itself. -/
def batchNorm (h : Fin 16 → Fin 4096 → Fin C → EReal) (g be : Fin C → EReal) : Fin 16 → Fin 4096 → Fin C → EReal :=
  fun b n => affinePt (h b n) (colMean cs h) (colVar cs h) g be

end Norm

/-- The second layer's output over all points, from the first layer's. -/
def hidden2 (cs1 : (Fin 16 → Fin 4096 → Fin 384 → EReal) → Fin 384 → EReal)
    (h1 : Fin 16 → Fin 4096 → Fin 384 → EReal) (g1 be1 : Fin 384 → EReal)
    (W2 : Fin 256 → Fin 384 → EReal) (b2 : Fin 256 → EReal) : Fin 16 → Fin 4096 → Fin 256 → EReal :=
  fun b n => hiddenPt2 (h1 b n) (colMean cs1 h1) (colVar cs1 h1) g1 be1 W2 b2

/-- The whole map, from the twelve inputs. -/
def result (cs1 : (Fin 16 → Fin 4096 → Fin 384 → EReal) → Fin 384 → EReal)
    (cs2 : (Fin 16 → Fin 4096 → Fin 256 → EReal) → Fin 256 → EReal)
    (xd : Fin 16 → Fin 1024 → Fin 3 → EReal) (xu : Fin 16 → Fin 4096 → Fin 3 → EReal)
    (fd : Fin 16 → Fin 1024 → Fin 256 → EReal) (fu : Fin 16 → Fin 4096 → Fin 128 → EReal)
    (W1 : Fin 384 → Fin 384 → EReal) (b1 g1 be1 : Fin 384 → EReal)
    (W2 : Fin 256 → Fin 384 → EReal) (b2 g2 be2 : Fin 256 → EReal) : Fin 16 → Fin 4096 → Fin 256 → EReal :=
  batchNorm cs2 (hidden2 cs1 (hidden1 xd xu fd fu W1 b1) g1 be1 W2 b2) g2 be2

/-! ## The sum over all points, as the programs take it -/

/-- Per channel, the host's sum over the two point axes of a [16, 4096, 384] array, started from the word `0`. -/
def colSum384 (f : Fin 16 → Fin 4096 → Fin 384 → EReal) (d : Fin 384) : EReal :=
  Host.reduceAdd (F := Ideal) (s := ⟨3, ![16, 4096, 384]⟩) (φ := .f32) (axes := [0, 1]) (t := ⟨1, ![384]⟩) (u := ⟨0, ![]⟩)
    (arr3 f) (constant ⟨0, ![]⟩ .f32 0x00000000#32) (by decide) (by decide) (ix1 d)

/-- The same over a [16, 4096, 256] array. -/
def colSum256 (f : Fin 16 → Fin 4096 → Fin 256 → EReal) (d : Fin 256) : EReal :=
  Host.reduceAdd (F := Ideal) (s := ⟨3, ![16, 4096, 256]⟩) (φ := .f32) (axes := [0, 1]) (t := ⟨1, ![256]⟩) (u := ⟨0, ![]⟩)
    (arr3 f) (constant ⟨0, ![]⟩ .f32 0x00000000#32) (by decide) (by decide) (ix1 d)

/-- A program's own spelling of that reduction (whatever witnesses it carries) read at a channel. -/
theorem colSum384_eq (A : (⟨3, ![16, 4096, 384]⟩ : Shape).Idx → EReal)
    (h1 : (⟨3, ![16, 4096, 384]⟩ : Shape).ReducesTo [0, 1] ⟨1, ![384]⟩) (h2 : 0 < (⟨0, ![]⟩ : Shape).numel)
    (j : (⟨1, ![384]⟩ : Shape).Idx) :
    Host.reduceAdd (F := Ideal) (φ := .f32) A (constant ⟨0, ![]⟩ .f32 0x00000000#32) h1 h2 j = colSum384 (fam3 A) (j 0) := by
  unfold colSum384
  rw [arr3_fam3]
  exact congrArg _ (eq_ix1 j)

theorem colSum256_eq (A : (⟨3, ![16, 4096, 256]⟩ : Shape).Idx → EReal)
    (h1 : (⟨3, ![16, 4096, 256]⟩ : Shape).ReducesTo [0, 1] ⟨1, ![256]⟩) (h2 : 0 < (⟨0, ![]⟩ : Shape).numel)
    (j : (⟨1, ![256]⟩ : Shape).Idx) :
    Host.reduceAdd (F := Ideal) (φ := .f32) A (constant ⟨0, ![]⟩ .f32 0x00000000#32) h1 h2 j = colSum256 (fam3 A) (j 0) := by
  unfold colSum256
  rw [arr3_fam3]
  exact congrArg _ (eq_ix1 j)

end PointFeature

end
-- ==== Proof.Region0Pay.lean ====
/-
  What the first kernel's body stores for one row of its block. A block is one cloud's 1024 sparse points (3 coordinates, 256 features
  each), 1024 of its dense points (3 coordinates, 128 features each), the first layer's weights transposed and its bias as a row. Entry
  (r, d) needs row r of the dense blocks, every row of the sparse ones, column d of the weights and the bias at d: the reciprocals of
  |u|² + |p|² − 2⟨u, p⟩ + ε (two lane sums, one spread as a column and one as a row, and a rows-against-rows product), divided by their row
  sum, weight the sparse features in a matrix product; the point's own features laid before that mean meet the weights, plus the bias. No
  algebraic law is needed: each reshaping is read at coordinates, each product re-indexed along its one contracted axis, term by term.
-/
import proofs.«149719_j46755013984985_1_alg».proof.Proof.Gen.KernelIdeal.Frame
import proofs.«149719_j46755013984985_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen PointFeature
open Idealize.ShloMosaic Idealize.ShloMosaic.ValueIdx Idealize.ShloMosaic.TcCoe Idealize.SL.Sem
open Idealize.ShloMosaic.Pipeline (Dat)

/-! ## Whole-buffer rectangles start at zero -/

theorem zero3 : (![0, 0, 0] : Fin 3 → Nat) = fun _ => 0 := funext fun a => by fin_cases a <;> rfl
theorem zero2 : (![0, 0] : Fin 2 → Nat) = fun _ => 0 := funext fun a => by fin_cases a <;> rfl

/-! ## Layout operations of a keepdims column, at coordinates -/

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum along the lanes of a `[1024, n]` matrix, at row `r`: the sum of that row. -/
theorem laneSum_apply {n : ℕ} (src : FVec Ideal ⟨2, ![1024, n]⟩ .f32)
    (h : (⟨2, ![1024, n]⟩ : Shape).Reduces [1] ⟨1, ![1024]⟩) (hφ : FKind.Formats .f32)
    (hacc : (0x00000000#32 : BitVec 32) = FKind.add.neutral .f32 hφ) (r : Fin 1024) :
    multiReduction (F := Ideal) .add [1] ⟨1, ![1024]⟩ src 0x00000000#32 h hφ hacc (ix1 r) = ∑ k : Fin n, src (ix2 r k) := by
  refine (Ideal.multiReduction_add_single src _ h hφ hacc (ix1 r)).trans ?_
  refine Finset.sum_congr rfl fun k _ => congrArg src ?_
  funext a
  refine Fin.ext ?_
  match a with
  | ⟨0, _⟩ => rfl
  | ⟨1, _⟩ => rfl

/-! ## The three matrix products, at coordinates -/

theorem lhs_cross_0 (i : S1024x1024.Idx) (q : dot_S1024x3_S1024x3_S1024x1024_1_1_0_0_n_n.contr.Idx) :
    (dot_S1024x3_S1024x3_S1024x1024_1_1_0_0_n_n.lhsIdx i q 0).val = (i 0).val := by
  unfold DotDims.lhsIdx
  rw [dif_neg (show ¬(0 : Fin S1024x3.rank) ∈ dot_S1024x3_S1024x3_S1024x1024_1_1_0_0_n_n.lhsBatch by decide), dif_pos (show (0 : Fin S1024x3.rank) ∈ dot_S1024x3_S1024x3_S1024x1024_1_1_0_0_n_n.lhsNonContracting by decide)]
  rfl
theorem lhs_cross_1 (i : S1024x1024.Idx) (q : dot_S1024x3_S1024x3_S1024x1024_1_1_0_0_n_n.contr.Idx) :
    (dot_S1024x3_S1024x3_S1024x1024_1_1_0_0_n_n.lhsIdx i q 1).val = (q ⟨0, by decide⟩).val :=
  dot_S1024x3_S1024x3_S1024x1024_1_1_0_0_n_n.lhsIdx_val_of_single rfl i q
theorem rhs_cross_0 (i : S1024x1024.Idx) (q : dot_S1024x3_S1024x3_S1024x1024_1_1_0_0_n_n.contr.Idx) :
    (dot_S1024x3_S1024x3_S1024x1024_1_1_0_0_n_n.rhsIdx i q 0).val = (i 1).val := by
  unfold DotDims.rhsIdx
  rw [dif_neg (show ¬(0 : Fin S1024x3.rank) ∈ dot_S1024x3_S1024x3_S1024x1024_1_1_0_0_n_n.rhsBatch by decide), dif_pos (show (0 : Fin S1024x3.rank) ∈ dot_S1024x3_S1024x3_S1024x1024_1_1_0_0_n_n.rhsNonContracting by decide)]
  rfl
theorem rhs_cross_1 (i : S1024x1024.Idx) (q : dot_S1024x3_S1024x3_S1024x1024_1_1_0_0_n_n.contr.Idx) :
    (dot_S1024x3_S1024x3_S1024x1024_1_1_0_0_n_n.rhsIdx i q 1).val = (q ⟨0, by decide⟩).val :=
  dot_S1024x3_S1024x3_S1024x1024_1_1_0_0_n_n.rhsIdx_val_of_single rfl i q
/-- Rows of `A` against rows of `B` (both contracted on their 3 lanes): entry `(p, c)` is `∑ k, A p k · B c k`. -/
theorem matmul_cross_apply (A : FVec Ideal S1024x3 .bf16) (B : FVec Ideal S1024x3 .bf16) (p : Fin 1024) (c : Fin 1024) :
    matmul dot_S1024x3_S1024x3_S1024x1024_1_1_0_0_n_n none A B (constant (F := Ideal) S1024x1024 .f32 0x00000000#32) (ix2 p c)
      = ∑ k : Fin 3, A (ix2 p k) * B (ix2 c k) := by
  simp only [matmul]
  rw [Ideal.matmul_constant_zero_apply, ← Equiv.sum_comp (contrEquiv1 dot_S1024x3_S1024x3_S1024x1024_1_1_0_0_n_n 3 rfl rfl).symm]
  refine Finset.sum_congr rfl fun k _ => ?_
  have hk := contrEquiv1_symm_val dot_S1024x3_S1024x3_S1024x1024_1_1_0_0_n_n 3 rfl rfl k
  have el : dot_S1024x3_S1024x3_S1024x1024_1_1_0_0_n_n.lhsIdx (ix2 p c) ((contrEquiv1 dot_S1024x3_S1024x3_S1024x1024_1_1_0_0_n_n 3 rfl rfl).symm k) = ix2 p k := funext fun a => Fin.ext (by
    match a with
    | ⟨0, _⟩ => exact lhs_cross_0 _ _
    | ⟨1, _⟩ => exact (lhs_cross_1 _ _).trans hk)
  have er : dot_S1024x3_S1024x3_S1024x1024_1_1_0_0_n_n.rhsIdx (ix2 p c) ((contrEquiv1 dot_S1024x3_S1024x3_S1024x1024_1_1_0_0_n_n 3 rfl rfl).symm k) = ix2 c k := funext fun a => Fin.ext (by
    match a with
    | ⟨0, _⟩ => exact rhs_cross_0 _ _
    | ⟨1, _⟩ => exact (rhs_cross_1 _ _).trans hk)
  rw [el, er]

theorem lhs_mix_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_mix_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_mix_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_mix_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl
/-- A `[1024, 1024]` matrix times a `[1024, 256]` one: entry `(p, c)` is `∑ k, A p k · B k c`. -/
theorem matmul_mix_apply (A : FVec Ideal S1024x1024 .bf16) (B : FVec Ideal S1024x256 .bf16) (p : Fin 1024) (c : Fin 256) :
    matmul dot_S1024x1024_S1024x256_S1024x256_1_0_0_1_n_n none A B (constant (F := Ideal) S1024x256 .f32 0x00000000#32) (ix2 p c)
      = ∑ k : Fin 1024, A (ix2 p k) * B (ix2 k c) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p c) ((contrEquiv1 dot_S1024x1024_S1024x256_S1024x256_1_0_0_1_n_n 1024 rfl rfl).symm k) = ix2 p k := funext fun a => Fin.ext (by
    match a with
    | ⟨0, _⟩ => exact lhs_mix_0 _ _
    | ⟨1, _⟩ => exact (lhs_mix_1 _ _).trans hk)
  have er : dot_S1024x1024_S1024x256_S1024x256_1_0_0_1_n_n.rhsIdx (ix2 p c) ((contrEquiv1 dot_S1024x1024_S1024x256_S1024x256_1_0_0_1_n_n 1024 rfl rfl).symm k) = ix2 k c := funext fun a => Fin.ext (by
    match a with
    | ⟨0, _⟩ => exact (rhs_mix_0 _ _).trans hk
    | ⟨1, _⟩ => exact rhs_mix_1 _ _)
  rw [el, er]

theorem lhs_lin_0 (i : S1024x384.Idx) (q : dot_S1024x384_S384x384_S1024x384_1_0_0_1_n_n.contr.Idx) :
    (dot_S1024x384_S384x384_S1024x384_1_0_0_1_n_n.lhsIdx i q 0).val = (i 0).val := by
  unfold DotDims.lhsIdx
  rw [dif_neg (show ¬(0 : Fin S1024x384.rank) ∈ dot_S1024x384_S384x384_S1024x384_1_0_0_1_n_n.lhsBatch by decide), dif_pos (show (0 : Fin S1024x384.rank) ∈ dot_S1024x384_S384x384_S1024x384_1_0_0_1_n_n.lhsNonContracting by decide)]
  rfl
theorem lhs_lin_1 (i : S1024x384.Idx) (q : dot_S1024x384_S384x384_S1024x384_1_0_0_1_n_n.contr.Idx) :
    (dot_S1024x384_S384x384_S1024x384_1_0_0_1_n_n.lhsIdx i q 1).val = (q ⟨0, by decide⟩).val :=
  dot_S1024x384_S384x384_S1024x384_1_0_0_1_n_n.lhsIdx_val_of_single rfl i q
theorem rhs_lin_0 (i : S1024x384.Idx) (q : dot_S1024x384_S384x384_S1024x384_1_0_0_1_n_n.contr.Idx) :
    (dot_S1024x384_S384x384_S1024x384_1_0_0_1_n_n.rhsIdx i q 0).val = (q ⟨0, by decide⟩).val :=
  dot_S1024x384_S384x384_S1024x384_1_0_0_1_n_n.rhsIdx_val_of_single rfl i q
theorem rhs_lin_1 (i : S1024x384.Idx) (q : dot_S1024x384_S384x384_S1024x384_1_0_0_1_n_n.contr.Idx) :
    (dot_S1024x384_S384x384_S1024x384_1_0_0_1_n_n.rhsIdx i q 1).val = (i 1).val := by
  unfold DotDims.rhsIdx
  rw [dif_neg (show ¬(1 : Fin S384x384.rank) ∈ dot_S1024x384_S384x384_S1024x384_1_0_0_1_n_n.rhsBatch by decide), dif_pos (show (1 : Fin S384x384.rank) ∈ dot_S1024x384_S384x384_S1024x384_1_0_0_1_n_n.rhsNonContracting by decide)]
  rfl
/-- A `[1024, 384]` matrix times a `[384, 384]` one: entry `(p, c)` is `∑ k, A p k · B k c`. -/
theorem matmul_lin_apply (A : FVec Ideal S1024x384 .bf16) (B : FVec Ideal S384x384 .bf16) (p : Fin 1024) (c : Fin 384) :
    matmul dot_S1024x384_S384x384_S1024x384_1_0_0_1_n_n none A B (constant (F := Ideal) S1024x384 .f32 0x00000000#32) (ix2 p c)
      = ∑ k : Fin 384, A (ix2 p k) * B (ix2 k c) := by
  simp only [matmul]
  rw [Ideal.matmul_constant_zero_apply, ← Equiv.sum_comp (contrEquiv1 dot_S1024x384_S384x384_S1024x384_1_0_0_1_n_n 384 rfl rfl).symm]
  refine Finset.sum_congr rfl fun k _ => ?_
  have hk := contrEquiv1_symm_val dot_S1024x384_S384x384_S1024x384_1_0_0_1_n_n 384 rfl rfl k
  have el : dot_S1024x384_S384x384_S1024x384_1_0_0_1_n_n.lhsIdx (ix2 p c) ((contrEquiv1 dot_S1024x384_S384x384_S1024x384_1_0_0_1_n_n 384 rfl rfl).symm k) = ix2 p k := funext fun a => Fin.ext (by
    match a with
    | ⟨0, _⟩ => exact lhs_lin_0 _ _
    | ⟨1, _⟩ => exact (lhs_lin_1 _ _).trans hk)
  have er : dot_S1024x384_S384x384_S1024x384_1_0_0_1_n_n.rhsIdx (ix2 p c) ((contrEquiv1 dot_S1024x384_S384x384_S1024x384_1_0_0_1_n_n 384 rfl rfl).symm k) = ix2 k c := funext fun a => Fin.ext (by
    match a with
    | ⟨0, _⟩ => exact (rhs_lin_0 _ _).trans hk
    | ⟨1, _⟩ => exact rhs_lin_1 _ _)
  rw [el, er]

/-! ## A keepdims lane sum spread back over a `[1024, 1024]` matrix -/

/-- The column of row sums of `X`, repeated along every row: entry `(r, m)` is the sum of row `r`. -/
theorem colSum_apply {n : ℕ} (X : FVec Ideal ⟨2, ![1024, n]⟩ .f32)
    (h : (⟨2, ![1024, n]⟩ : Shape).Reduces [1] S1024) (hφ : FKind.Formats .f32)
    (hacc : (0x00000000#32 : BitVec 32) = FKind.add.neutral .f32 hφ)
    (h1 : S1024.ShapeCasts S1024x1) (h2 : S1024x1.Broadcasts S1024x1024) (r m : Fin 1024) :
    broadcastTo S1024x1024 (shapeCast S1024x1 (multiReduction (F := Ideal) .add [1] S1024 X 0x00000000#32 h hφ hacc) h1) h2 (ix2 r m)
      = ∑ k : Fin n, X (ix2 r k) :=
  (broadcastTo_a1_ab_apply _ h2 r m).trans ((shapeCast_a_a1_apply _ h1 r 0).trans (laneSum_apply X h hφ hacc r))

/-- The row of row sums of `X`, repeated down every column: entry `(r, m)` is the sum of row `m`. -/
theorem rowSum_apply {n : ℕ} (X : FVec Ideal ⟨2, ![1024, n]⟩ .f32)
    (h : (⟨2, ![1024, n]⟩ : Shape).Reduces [1] S1024) (hφ : FKind.Formats .f32)
    (hacc : (0x00000000#32 : BitVec 32) = FKind.add.neutral .f32 hφ)
    (h1 : S1024.ShapeCasts S1x1024) (h2 : S1x1024.Broadcasts S1024x1024) (r m : Fin 1024) :
    broadcastTo S1024x1024 (shapeCast S1x1024 (multiReduction (F := Ideal) .add [1] S1024 X 0x00000000#32 h hφ hacc) h1) h2 (ix2 r m)
      = ∑ k : Fin n, X (ix2 m k) :=
  (broadcastTo_1b_ab_apply _ h2 r m).trans ((shapeCast_a_1a_apply _ h1 0 m).trans (laneSum_apply X h hφ hacc m))

/-! ## Reciprocal distances and weights -/

/-- Entry `(r, m)` of the matrix of reciprocals, dense rows `P` against sparse rows `Q`:
    `1 / (|P r|² + |Q m|² − 2⟨P r, Q m⟩ + ε)`. -/
theorem recip_apply (P Q : FVec Ideal S1024x3 .f32) (hφ : FKind.Formats .f32)
    (hacc : (0x00000000#32 : BitVec 32) = FKind.add.neutral .f32 hφ) (r m : Fin 1024) :
    divf (broadcast S1024x1024 (Scalar.ofBits (F := Ideal) .f32 0x3F800000#32))
        (addf
          (subf
            (addf
              (broadcastTo S1024x1024 (shapeCast S1024x1 (multiReduction (F := Ideal) .add [1] S1024 (mulf P P) 0x00000000#32 reduces_S1024x3_S1024 hφ hacc) shapeCasts_S1024_S1024x1) broadcasts_S1024x1_S1024x1024)
              (broadcastTo S1024x1024 (shapeCast S1x1024 (multiReduction (F := Ideal) .add [1] S1024 (mulf Q Q) 0x00000000#32 reduces_S1024x3_S1024 hφ hacc) shapeCasts_S1024_S1x1024) broadcasts_S1x1024_S1024x1024))
            (mulf (broadcast S1024x1024 (Scalar.ofBits (F := Ideal) .f32 0x40000000#32))
              (matmul dot_S1024x3_S1024x3_S1024x1024_1_1_0_0_n_n none (truncf .bf16 P bitsLt_bf16_f32) (truncf .bf16 Q bitsLt_bf16_f32)
                (constant (F := Ideal) S1024x1024 .f32 0x00000000#32))))
          (broadcast S1024x1024 (Scalar.ofBits (F := Ideal) .f32 0x322BCC77#32))) (ix2 r m)
      = invDist (fun m k => Q (ix2 m k)) (fun k => P (ix2 r k)) m := by
  unfold invDist sqLen dot3
  refine congrArg (Ideal.div cOne) (congrArg (· + cEpsDist) (congrArg₂ (· - ·) (congrArg₂ (· + ·) ?_ ?_) (congrArg (cTwo * ·) ?_)))
  · exact colSum_apply (mulf P P) _ hφ hacc _ _ r m
  · exact rowSum_apply (mulf Q Q) _ hφ hacc _ _ r m
  · exact matmul_cross_apply _ _ r m

/-- A matrix `R` divided by its keepdims row sums: entry `(r, m)` is `R r m / ∑ m', R r m'`. -/
theorem normalise_apply (R : FVec Ideal S1024x1024 .f32) (hφ : FKind.Formats .f32)
    (hacc : (0x00000000#32 : BitVec 32) = FKind.add.neutral .f32 hφ) (r m : Fin 1024) :
    divf R (broadcastTo S1024x1024 (shapeCast S1024x1 (multiReduction (F := Ideal) .add [1] S1024 R 0x00000000#32 reduces_S1024x1024_S1024 hφ hacc) shapeCasts_S1024_S1024x1) broadcasts_S1024x1_S1024x1024) (ix2 r m)
      = Ideal.div (R (ix2 r m)) (∑ m' : Fin 1024, R (ix2 r m')) :=
  congrArg (Ideal.div (R (ix2 r m))) (colSum_apply R _ hφ hacc _ _ r m)

/-! ## The two payloads and the block -/

/-- The reciprocals read from the two point blocks: entry `(r, m)` is `invDist` of dense point `r` against sparse point `m`. -/
theorem recip_blocks_apply (v0 v2 : Vec Ideal S1x1024x3 .f32) (hφ : FKind.Formats .f32)
    (hacc : (0x00000000#32 : BitVec 32) = FKind.add.neutral .f32 hφ) (r m : Fin 1024) :
    divf (broadcast S1024x1024 (Scalar.ofBits (F := Ideal) .f32 0x3F800000#32))
        (addf
          (subf
            (addf
              (broadcastTo S1024x1024 (shapeCast S1024x1 (multiReduction (F := Ideal) .add [1] S1024
                (mulf (shapeCast S1024x3 v2 shapeCasts_S1x1024x3_S1024x3) (shapeCast S1024x3 v2 shapeCasts_S1x1024x3_S1024x3))
                0x00000000#32 reduces_S1024x3_S1024 hφ hacc) shapeCasts_S1024_S1024x1) broadcasts_S1024x1_S1024x1024)
              (broadcastTo S1024x1024 (shapeCast S1x1024 (multiReduction (F := Ideal) .add [1] S1024
                (mulf (shapeCast S1024x3 v0 shapeCasts_S1x1024x3_S1024x3) (shapeCast S1024x3 v0 shapeCasts_S1x1024x3_S1024x3))
                0x00000000#32 reduces_S1024x3_S1024 hφ hacc) shapeCasts_S1024_S1x1024) broadcasts_S1x1024_S1024x1024))
            (mulf (broadcast S1024x1024 (Scalar.ofBits (F := Ideal) .f32 0x40000000#32))
              (matmul dot_S1024x3_S1024x3_S1024x1024_1_1_0_0_n_n none
                (truncf .bf16 (shapeCast S1024x3 v2 shapeCasts_S1x1024x3_S1024x3) bitsLt_bf16_f32)
                (truncf .bf16 (shapeCast S1024x3 v0 shapeCasts_S1x1024x3_S1024x3) bitsLt_bf16_f32)
                (constant (F := Ideal) S1024x1024 .f32 0x00000000#32))))
          (broadcast S1024x1024 (Scalar.ofBits (F := Ideal) .f32 0x322BCC77#32))) (ix2 r m)
      = invDist (fun m k => v0 (ix3 0 m k)) (fun k => v2 (ix3 0 r k)) m := by
  refine (recip_apply _ _ hφ hacc r m).trans ?_
  have eQ : (fun (m : Fin 1024) (k : Fin 3) => shapeCast S1024x3 v0 shapeCasts_S1x1024x3_S1024x3 (ix2 m k)) = fun m k => v0 (ix3 0 m k) :=
    funext fun m => funext fun k => shapeCast_1ab_ab_apply v0 _ m k
  have eP : (fun (k : Fin 3) => shapeCast S1024x3 v2 shapeCasts_S1x1024x3_S1024x3 (ix2 r k)) = fun k => v2 (ix3 0 r k) :=
    funext fun k => shapeCast_1ab_ab_apply v2 _ r k
  rw [eQ, eP]

/-- Row `r`, column `c` of the joined features: the dense point's own features, then the weighted mean of the sparse ones. -/
theorem pay2_apply (v0 v2 : Vec Ideal S1x1024x3 .f32) (v4 : Vec Ideal S1x1024x256 .f32) (v6 : Vec Ideal S1x1024x128 .f32)
    (r : Fin 1024) (c : Fin 384) :
    k0_pay2 v0 v2 v4 v6 (ix2 r c)
      = joined (fun m k => v0 (ix3 0 m k)) (fun k => v2 (ix3 0 r k)) (fun m e => v4 (ix3 0 m e)) (fun e => v6 (ix3 0 r e)) c := by
  unfold k0_pay2 joined
  by_cases hc : c.val < 128
  · rw [dif_pos hc]
    refine (concatenate_pair_apply_left (t := S1024x384) (s₁ := S1024x128) (s₂ := S1024x256) _ _ _ _ (ix2 r c) rfl (ix2 r (⟨c.val, hc⟩ : Fin 128) : S1024x128.Idx) (fun b => by
      match b with
      | ⟨0, _⟩ => rfl
      | ⟨1, _⟩ => rfl)).trans ?_
    exact shapeCast_1ab_ab_apply v6 _ r ⟨c.val, hc⟩
  · rw [dif_neg hc]
    have hc' : c.val - 128 < 256 := by have := c.isLt; omega
    refine (concatenate_pair_apply_right (t := S1024x384) (s₁ := S1024x128) (s₂ := S1024x256) _ _ _ _ (ix2 r c) rfl rfl (ix2 r (⟨c.val - 128, hc'⟩ : Fin 256) : S1024x256.Idx) (fun b hb => ?_) ?_).trans ?_
    · match b with
      | ⟨0, _⟩ => rfl
      | ⟨1, _⟩ => exact absurd rfl hb
    · show c.val - 128 + 128 = c.val
      omega
    · refine (matmul_mix_apply _ _ r ⟨c.val - 128, hc'⟩).trans ?_
      unfold PointFeature.interp weight invDistSum
      refine Finset.sum_congr rfl fun m _ => congrArg₂ (· * ·) ?_ (shapeCast_1ab_ab_apply v4 _ m _)
      refine (normalise_apply _ _ _ r m).trans ?_
      refine congrArg₂ Ideal.div (recip_blocks_apply v0 v2 _ _ r m) (Finset.sum_congr rfl fun m' _ => recip_blocks_apply v0 v2 _ _ r m')

/-- Row `r`, channel `d` of the linear layer on the joined features `a`. -/
theorem pay1_apply (a : FVec Ideal S1024x384 .f32) (v35 : Vec Ideal S384x384 .f32) (v37 : Vec Ideal S1x384 .f32)
    (r : Fin 1024) (d : Fin 384) :
    k0_pay1 a v35 v37 (ix3 0 r d) = linear (fun c => a (ix2 r c)) (fam2T v35) (row v37) d := by
  unfold k0_pay1 linear
  refine (shapeCast_ab_1ab_apply _ _ 0 r d).trans ?_
  refine congrArg₂ (· + ·) ?_ ?_
  · refine (matmul_lin_apply _ _ r d).trans (Finset.sum_congr rfl fun c _ => congrArg (a (ix2 r c) * ·) ?_)
    exact congrFun (shapeCast_self v35 _) (ix2 c d)
  · refine (broadcastTo_1b_ab_apply _ _ r d).trans ?_
    exact congrFun (shapeCast_self v37 _) (ix2 0 d)

/-- Row `r`, channel `d` of what the body leaves in the output block, from the six input blocks. -/
theorem out0_6_apply (x0 x1 : Vec Ideal S1x1024x3 .f32) (x2 : Vec Ideal S1x1024x256 .f32) (x3 : Vec Ideal S1x1024x128 .f32)
    (x4 : Vec Ideal S384x384 .f32) (x5 : Vec Ideal S1x384 .f32) (r : Fin 1024) (d : Fin 384) :
    out0_6 x0 x1 x2 x3 x4 x5 (ix3 0 r d)
      = hiddenPt1 (fun m k => x0 (ix3 0 m k)) (fun k => x1 (ix3 0 r k)) (fun m e => x2 (ix3 0 m e)) (fun e => x3 (ix3 0 r e))
          (fam2T x4) (row x5) d := by
  unfold out0_6
  rw [View.canon_unit_zero zero3]
  simp only [View.ld_unit_zero (S := S1x1024x3) zero3, View.ld_unit_zero (S := S1x1024x256) zero3,
    View.ld_unit_zero (S := S1x1024x128) zero3, View.ld_unit_zero (S := S384x384) zero2, View.ld_unit_zero (S := S1x384) zero2]
  refine (pay1_apply _ x4 x5 r d).trans ?_
  unfold hiddenPt1
  exact congrArg (fun a => linear a (fam2T x4) (row x5) d) (funext fun c => pay2_apply x0 x1 x2 x3 r c)

end Cert.KernelIdeal.Val

end
-- ==== Proof.Region0.lean ====
/-
  The first kernel's output array after its region, as one function of the arrays the region finds.
  Grid point (b, q) works on cloud b and its dense points 1024·q … 1024·q + 1023: its blocks are those rows of the dense
  points and dense features, all 1024 sparse points and sparse features of cloud b, the whole weight matrix and the bias row.
  Entry (b, n, d) of the output is the first layer at dense point n of cloud b, channel d: it depends on that point's
  coordinates and features, on every sparse point and feature of cloud b, on row d of the weights and on bias entry d.
  A block's coordinate in its array is block index × block extent + the coordinate inside the block, so what a grid point
  writes back is its block of that one array; row n of cloud b lies in the block of point (b, n / 1024), so the blocks fill it.
-/
import proofs.«149719_j46755013984985_1_alg».proof.Proof.Region0Pay

set_option maxRecDepth 16384

noncomputable section

namespace Cert.KernelIdeal.Val

open Cert.KernelIdeal Cert.KernelIdeal.Gen PointFeature
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

namespace Region0

/-- The block indices at grid point `t = 4·b + q`: the output, the dense points and the dense features sit at `(b, q, 0)`,
    the sparse points and sparse features at `(b, 0, 0)`, the weights and the bias at the origin. -/
theorem blockIndex : ∀ t : Fin cfg0.N,
    (win0_6.index t (0 : Fin 3) = t.val / 4 ∧ win0_6.index t (1 : Fin 3) = t.val % 4 ∧ win0_6.index t (2 : Fin 3) = 0)
    ∧ (win0_0.index t (0 : Fin 3) = t.val / 4 ∧ win0_0.index t (1 : Fin 3) = 0 ∧ win0_0.index t (2 : Fin 3) = 0)
    ∧ (win0_1.index t (0 : Fin 3) = t.val / 4 ∧ win0_1.index t (1 : Fin 3) = t.val % 4 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- The first layer at a point is a function of its six data and of the channel. -/
theorem hiddenPt1_congr {dn dn' : Fin 1024 → Fin 3 → EReal} {u u' : Fin 3 → EReal} {fdn fdn' : Fin 1024 → Fin 256 → EReal}
    {fuu fuu' : Fin 128 → EReal} {W W' : Fin 384 → Fin 384 → EReal} {b1 b1' : Fin 384 → EReal} {d d' : Fin 384}
    (h0 : dn = dn') (h1 : u = u') (h2 : fdn = fdn') (h3 : fuu = fuu') (h4 : W = W') (h5 : b1 = b1') (h6 : d = d') :
    hiddenPt1 dn u fdn fuu W b1 d = hiddenPt1 dn' u' fdn' fuu' W' b1' d' := by
  subst h0 h1 h2 h3 h4 h5 h6; rfl

/-- One row of one block. If the six blocks hold, of six arrays, the sparse points and sparse features of cloud `b`, at their
    row `r` the coordinates and features of dense point `n` of that cloud, the weights and the bias, then row `r`, channel `d`
    of what the body stores is entry `(b, n, d)` of the first layer over all points of those arrays. -/
theorem row_of_block (A0 : S16x1024x3.Idx → EReal) (A1 : S16x4096x3.Idx → EReal) (A2 : S16x1024x256.Idx → EReal)
    (A3 : S16x4096x128.Idx → EReal) (A4 : S384x384.Idx → EReal) (A5 : S1x384.Idx → EReal)
    (x0 x1 : Vec Ideal S1x1024x3 .f32) (x2 : Vec Ideal S1x1024x256 .f32) (x3 : Vec Ideal S1x1024x128 .f32)
    (x4 : Vec Ideal S384x384 .f32) (x5 : Vec Ideal S1x384 .f32)
    (b : Fin 16) (n : Fin 4096) (r : Fin 1024) (d : Fin 384)
    (h0 : ∀ m k, x0 (ix3 0 m k) = A0 (ix3 b m k))
    (h1 : ∀ k, x1 (ix3 0 r k) = A1 (ix3 b n k))
    (h2 : ∀ m e, x2 (ix3 0 m e) = A2 (ix3 b m e))
    (h3 : ∀ e, x3 (ix3 0 r e) = A3 (ix3 b n e))
    (h4 : ∀ p q, x4 (ix2 p q) = A4 (ix2 p q))
    (h5 : ∀ p, x5 (ix2 0 p) = A5 (ix2 0 p)) :
    out0_6 x0 x1 x2 x3 x4 x5 (ix3 0 r d)
      = arr3 (hidden1 (fam3 A0) (fam3 A1) (fam3 A2) (fam3 A3) (fam2T A4) (row A5)) (ix3 b n d) := by
  rw [out0_6_apply]
  show hiddenPt1 _ _ _ _ _ _ d = hiddenPt1 (fam3 A0 b) (fam3 A1 b n) (fam3 A2 b) (fam3 A3 b n) (fam2T A4) (row A5) d
  exact hiddenPt1_congr (funext fun m => funext fun k => h0 m k) (funext fun k => h1 k)
    (funext fun m => funext fun e => h2 m e) (funext fun e => h3 e) (funext fun q => funext fun p => h4 p q)
    (funext fun p => h5 p) rfl

/-- The first layer's output over all points, of the arrays the region finds. -/
abbrev firstLayer (c : Dev nD) : S16x4096x384.Idx → EReal :=
  arr3 (hidden1 (fam3 (V c main_arg0 : S16x1024x3.Idx → EReal)) (fam3 (V c main_arg1 : S16x4096x3.Idx → EReal))
    (fam3 (V c main_arg2 : S16x1024x256.Idx → EReal)) (fam3 (V c main_arg3 : S16x4096x128.Idx → EReal))
    (fam2T (V c main_v0 : S384x384.Idx → EReal)) (row (V c main_v2 : S1x384.Idx → EReal)))

/-- What grid point `t = 4·b + q` writes back is its block of `firstLayer`: row `r` of the block is dense point
    `n = 1024·q + r` of cloud `b`, the dense blocks hold that point at their row `r`, the sparse blocks hold all of cloud `b`,
    and the weights and the bias are read whole. -/
theorem writeBack_eq (c : Dev nD) (t : Fin cfg0.N) :
    (dat0 (F := Ideal) V c).flushed 6 t = ((cfg0.win 6).blk t).view.read (Elt Ideal) (firstLayer V c) := by
  show (cfg0.win 6).cut (grid0.coords t) ((dat0 (F := Ideal) V c).after 6 t) = _
  rw [after0_6]
  obtain ⟨⟨e60, e61, e62⟩, ⟨e00, e01, e02⟩, ⟨e10, e11, e12⟩, ⟨e20, e21, e22⟩, ⟨e30, e31, e32⟩, ⟨e40, e41⟩, ⟨e50, e51⟩⟩ := blockIndex t
  have hN : t.val < 64 := t.isLt
  funext y
  have hy0 : (y 0).val < 1 := (y 0).isLt
  have hy1 : (y 1).val < 1024 := (y 1).isLt
  have hy2 : (y 2).val < 384 := (y 2).isLt
  -- the index inside the block, by coordinates: (0, r, d)
  have hx : (cfg0.win 6).xinj (grid0.coords t) y = (ix3 (0 : Fin 1) (⟨(y 1).val, hy1⟩ : Fin 1024) (⟨(y 2).val, hy2⟩ : Fin 384) : S1x1024x384.Idx) := by
    funext a; apply Fin.ext
    match a with
    | ⟨0, _⟩ => show (y 0).val = 0; omega
    | ⟨1, _⟩ => rfl
    | ⟨2, _⟩ => rfl
  -- the same entry in the array: (b, 1024·q + r, d)
  have hemb : ((cfg0.win 6).blk t).view.emb y
      = (ix3 (⟨t.val / 4, by omega⟩ : Fin 16) (⟨t.val % 4 * 1024 + (y 1).val, by omega⟩ : Fin 4096) (⟨(y 2).val, hy2⟩ : Fin 384) : S16x4096x384.Idx) := by
    funext a; apply Fin.ext
    match a with
    | ⟨0, _⟩ => show win0_6.index t (0 : Fin 3) * 1 + 1 * (y 0).val = t.val / 4; omega
    | ⟨1, _⟩ => show win0_6.index t (1 : Fin 3) * 1024 + 1 * (y 1).val = t.val % 4 * 1024 + (y 1).val; omega
    | ⟨2, _⟩ => show win0_6.index t (2 : Fin 3) * 384 + 1 * (y 2).val = (y 2).val; omega
  show out0_6 (iblk0 V c 0 t) (iblk0 V c 1 t) (iblk0 V c 2 t) (iblk0 V c 3 t) (iblk0 V c 4 t) (iblk0 V c 5 t) ((cfg0.win 6).xinj (grid0.coords t) y)
    = firstLayer V c (((cfg0.win 6).blk t).view.emb y)
  rw [hx, hemb]
  refine row_of_block (V c main_arg0) (V c main_arg1) (V c main_arg2) (V c main_arg3) (V c main_v0) (V c main_v2)
    (iblk0 V c 0 t) (iblk0 V c 1 t) (iblk0 V c 2 t) (iblk0 V c 3 t) (iblk0 V c 4 t) (iblk0 V c 5 t)
    (⟨t.val / 4, by omega⟩ : Fin 16) (⟨t.val % 4 * 1024 + (y 1).val, by omega⟩ : Fin 4096) (⟨(y 1).val, hy1⟩ : Fin 1024) (⟨(y 2).val, hy2⟩ : Fin 384)
    (fun m k => ?_) (fun k => ?_) (fun m e => ?_) (fun e => ?_) (fun p q => ?_) (fun p => ?_)
  -- sparse points: entry (0, m, k) of the block is entry (b, m, k) of the array
  · show V c main_arg0 (((cfg0.win 0).blk t).view.emb (ix3 (0 : Fin 1) m k : S1x1024x3.Idx)) = V c main_arg0 _
    refine congrArg (V c main_arg0) (funext fun a => Fin.ext ?_)
    match a with
    | ⟨0, _⟩ => show win0_0.index t (0 : Fin 3) * 1 + 1 * 0 = t.val / 4; omega
    | ⟨1, _⟩ => show win0_0.index t (1 : Fin 3) * 1024 + 1 * m.val = m.val; omega
    | ⟨2, _⟩ => show win0_0.index t (2 : Fin 3) * 3 + 1 * k.val = k.val; omega
  -- dense points: entry (0, r, k) of the block is entry (b, 1024·q + r, k) of the array
  · show V c main_arg1 (((cfg0.win 1).blk t).view.emb (ix3 (0 : Fin 1) (⟨(y 1).val, hy1⟩ : Fin 1024) k : S1x1024x3.Idx)) = V c main_arg1 _
    refine congrArg (V c main_arg1) (funext fun a => Fin.ext ?_)
    match a with
    | ⟨0, _⟩ => show win0_1.index t (0 : Fin 3) * 1 + 1 * 0 = t.val / 4; omega
    | ⟨1, _⟩ => show win0_1.index t (1 : Fin 3) * 1024 + 1 * (y 1).val = t.val % 4 * 1024 + (y 1).val; omega
    | ⟨2, _⟩ => show win0_1.index t (2 : Fin 3) * 3 + 1 * k.val = k.val; omega
  -- sparse features: entry (0, m, e) of the block is entry (b, m, e) of the array
  · show V c main_arg2 (((cfg0.win 2).blk t).view.emb (ix3 (0 : Fin 1) m e : S1x1024x256.Idx)) = V c main_arg2 _
    refine congrArg (V c main_arg2) (funext fun a => Fin.ext ?_)
    match a with
    | ⟨0, _⟩ => show win0_2.index t (0 : Fin 3) * 1 + 1 * 0 = t.val / 4; omega
    | ⟨1, _⟩ => show win0_2.index t (1 : Fin 3) * 1024 + 1 * m.val = m.val; omega
    | ⟨2, _⟩ => show win0_2.index t (2 : Fin 3) * 256 + 1 * e.val = e.val; omega
  -- dense features: entry (0, r, e) of the block is entry (b, 1024·q + r, e) of the array
  · show V c main_arg3 (((cfg0.win 3).blk t).view.emb (ix3 (0 : Fin 1) (⟨(y 1).val, hy1⟩ : Fin 1024) e : S1x1024x128.Idx)) = V c main_arg3 _
    refine congrArg (V c main_arg3) (funext fun a => Fin.ext ?_)
    match a with
    | ⟨0, _⟩ => show win0_3.index t (0 : Fin 3) * 1 + 1 * 0 = t.val / 4; omega
    | ⟨1, _⟩ => show win0_3.index t (1 : Fin 3) * 1024 + 1 * (y 1).val = t.val % 4 * 1024 + (y 1).val; omega
    | ⟨2, _⟩ => show win0_3.index t (2 : Fin 3) * 128 + 1 * e.val = e.val; omega
  -- the weights: the block is the array
  · show V c main_v0 (((cfg0.win 4).blk t).view.emb (ix2 p q : S384x384.Idx)) = V c main_v0 _
    refine congrArg (V c main_v0) (funext fun a => Fin.ext ?_)
    match a with
    | ⟨0, _⟩ => show win0_4.index t (0 : Fin 2) * 384 + 1 * p.val = p.val; omega
    | ⟨1, _⟩ => show win0_4.index t (1 : Fin 2) * 384 + 1 * q.val = q.val; omega
  -- the bias: the block is the array
  · show V c main_v2 (((cfg0.win 5).blk t).view.emb (ix2 (0 : Fin 1) p : S1x384.Idx)) = V c main_v2 _
    refine congrArg (V c main_v2) (funext fun a => Fin.ext ?_)
    match a with
    | ⟨0, _⟩ => show win0_5.index t (0 : Fin 2) * 1 + 1 * 0 = 0; omega
    | ⟨1, _⟩ => show win0_5.index t (1 : Fin 2) * 384 + 1 * p.val = p.val; omega

/-- An entry of the output array is in point `t`'s block iff each of its coordinates is in the block's range on its axis. -/
theorem mem_block (t : Fin cfg0.N) (i : S16x4096x384.Idx) :
    i ∈ ((cfg0.win 6).blk t).view.set ↔ ∀ a : Fin 3, win0_6.index t a * S1x1024x384.size a ≤ (i a).val ∧ (i a).val < win0_6.index t a * S1x1024x384.size a + S1x1024x384.size a := by
  show i ∈ ((View.whole main_v8).slice (win0_6.rect t)).set ↔ _
  rw [View.set_slice_whole, Rect.mem_set_unit]
  exact Iff.rfl

/-- The blocks fill the array: entry `(b, n, d)` lies in the block of grid point `4·b + n / 1024`. -/
theorem blocks_fill (i : S16x4096x384.Idx) :
    ∃ t : Fin cfg0.N, (cfg0.win 6).flush t = true ∧ i ∈ ((cfg0.win 6).blk t).view.set := by
  have hi0 : (i 0).val < 16 := (i 0).isLt
  have hi1 : (i 1).val < 4096 := (i 1).isLt
  have hi2 : (i 2).val < 384 := (i 2).isLt
  have hN : cfg0.N = 64 := N_0
  let t : Fin cfg0.N := ⟨(i 0).val * 4 + (i 1).val / 1024, by rw [hN]; omega⟩
  have ht : t.val = (i 0).val * 4 + (i 1).val / 1024 := rfl
  obtain ⟨⟨e60, e61, e62⟩, -⟩ := blockIndex t
  refine ⟨t, flush0_6 t, ?_⟩
  rw [mem_block]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 384 ≤ (i 2).val ∧ (i 2).val < win0_6.index t (2 : Fin 3) * 384 + 384; omega

end Region0

/-- After region 0 its output array is the first layer's output over all points, of the arrays the region finds. -/
theorem region0_value (c : Dev nD) :
    ((dat0 (F := Ideal) V c).arrAt 6 cfg0.N : S16x4096x384.Idx → EReal)
      = arr3 (hidden1 (fam3 (V c main_arg0 : S16x1024x3.Idx → EReal)) (fam3 (V c main_arg1 : S16x4096x3.Idx → EReal))
          (fam3 (V c main_arg2 : S16x1024x256.Idx → EReal)) (fam3 (V c main_arg3 : S16x4096x128.Idx → EReal))
          (fam2T (V c main_v0 : S384x384.Idx → EReal)) (row (V c main_v2 : S1x384.Idx → EReal))) :=
  -- every point writes back its block of one array, and the blocks fill the array
  (dat0 (F := Ideal) V c).arrAt_eq_of_cover 6 (Region0.firstLayer V c) (fun t _ => Region0.writeBack_eq V c t) Region0.blocks_fill

end Cert.KernelIdeal.Val

end
-- ==== Proof.Region1.lean ====
/-
  The second kernel. A block is 1024 consecutive points of one cloud: grid point (b, q) reads rows 1024·q … 1024·q + 1023 of
  cloud b of the first layer's output and writes the same rows of the second layer's; the six small arrays are read whole.
  Entry (r, d) of an output block depends on row r of the input block alone: every channel centred by the mean, scaled by
  1/√(variance + ε) and by the learned scale, shifted, floored at zero, then summed against column d of the weights, plus bias.
  A sum over the product's one contraction axis, re-indexed by its single coordinate, joins the body's matrix product to
  that formula; the 64 blocks tile the array, row n of cloud b lying in the block of point (b, n / 1024).
-/
import proofs.«149719_j46755013984985_1_alg».proof.Proof.Gen.KernelIdeal.Frame
import proofs.«149719_j46755013984985_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen PointFeature
open Idealize.ShloMosaic Idealize.ShloMosaic.ValueIdx Idealize.ShloMosaic.TcCoe Idealize.SL.Sem
open Idealize.ShloMosaic.Pipeline (Dat)

namespace Region1

/-- The whole-buffer rectangles of the body sit at zero offsets. -/
theorem zero3 : (![0, 0, 0] : Fin 3 → Nat) = fun _ => 0 := funext fun a => by fin_cases a <;> rfl
theorem zero2 : (![0, 0] : Fin 2 → Nat) = fun _ => 0 := funext fun a => by fin_cases a <;> rfl

/-- One store of the whole block, of whole-block loads: the output block is the payload of the seven input blocks. -/
theorem out1_7_eq_pay (x0 : Vec Ideal S1x1024x384 .f32) (x1 x2 x3 x4 : Vec Ideal S1x384 .f32) (x5 : Vec Ideal S384x256 .f32)
    (x6 : Vec Ideal S1x256 .f32) :
    out1_7 x0 x1 x2 x3 x4 x5 x6 = k1_pay1 x0 x1 x2 x3 x4 x5 x6 := by
  unfold out1_7
  rw [View.canon_unit_zero zero3]
  simp only [View.ld_unit_zero (S := S1x1024x384) zero3, View.ld_unit_zero (S := S1x384) zero2,
    View.ld_unit_zero (S := S384x256) zero2, View.ld_unit_zero (S := S1x256) zero2]

/-! The [1024, 384] × [384, 256] product's operand indices: output `(r, d)` and contraction position `k` read the left
    operand at `(r, k)` and the right at `(k, d)`. -/

theorem lhs_0 (i : S1024x256.Idx) (q : dot_S1024x384_S384x256_S1024x256_1_0_0_1_n_n.contr.Idx) :
    (dot_S1024x384_S384x256_S1024x256_1_0_0_1_n_n.lhsIdx i q 0).val = (i 0).val := by
  unfold DotDims.lhsIdx
  rw [dif_neg (show ¬(0 : Fin S1024x384.rank) ∈ dot_S1024x384_S384x256_S1024x256_1_0_0_1_n_n.lhsBatch by decide), dif_pos (show (0 : Fin S1024x384.rank) ∈ dot_S1024x384_S384x256_S1024x256_1_0_0_1_n_n.lhsNonContracting by decide)]
  rfl
theorem lhs_1 (i : S1024x256.Idx) (q : dot_S1024x384_S384x256_S1024x256_1_0_0_1_n_n.contr.Idx) :
    (dot_S1024x384_S384x256_S1024x256_1_0_0_1_n_n.lhsIdx i q 1).val = (q ⟨0, by decide⟩).val :=
  dot_S1024x384_S384x256_S1024x256_1_0_0_1_n_n.lhsIdx_val_of_single rfl i q
theorem rhs_0 (i : S1024x256.Idx) (q : dot_S1024x384_S384x256_S1024x256_1_0_0_1_n_n.contr.Idx) :
    (dot_S1024x384_S384x256_S1024x256_1_0_0_1_n_n.rhsIdx i q 0).val = (q ⟨0, by decide⟩).val :=
  dot_S1024x384_S384x256_S1024x256_1_0_0_1_n_n.rhsIdx_val_of_single rfl i q
theorem rhs_1 (i : S1024x256.Idx) (q : dot_S1024x384_S384x256_S1024x256_1_0_0_1_n_n.contr.Idx) :
    (dot_S1024x384_S384x256_S1024x256_1_0_0_1_n_n.rhsIdx i q 1).val = (i 1).val := by
  unfold DotDims.rhsIdx
  rw [dif_neg (show ¬(1 : Fin S384x256.rank) ∈ dot_S1024x384_S384x256_S1024x256_1_0_0_1_n_n.rhsBatch by decide), dif_pos (show (1 : Fin S384x256.rank) ∈ dot_S1024x384_S384x256_S1024x256_1_0_0_1_n_n.rhsNonContracting by decide)]
  rfl

/-- The product from a zero accumulator at `(r, d)`: the sum over the 384 inner positions of left `(r, e)` times right `(e, d)`. -/
theorem product_apply (a : FVec Ideal S1024x384 .bf16) (b : FVec Ideal S384x256 .bf16) (r : Fin 1024) (d : Fin 256) :
    matmul dot_S1024x384_S384x256_S1024x256_1_0_0_1_n_n none a b (constant S1024x256 .f32 0x00000000#32) (ix2 r d)
      = ∑ e : Fin 384, a (ix2 r e) * b (ix2 e d) := by
  simp only [matmul]
  rw [Ideal.matmul_constant_zero_apply, ← Equiv.sum_comp (contrEquiv1 dot_S1024x384_S384x256_S1024x256_1_0_0_1_n_n 384 rfl rfl).symm]
  refine Finset.sum_congr rfl fun k _ => ?_
  have hk := contrEquiv1_symm_val dot_S1024x384_S384x256_S1024x256_1_0_0_1_n_n 384 rfl rfl k
  have el : dot_S1024x384_S384x256_S1024x256_1_0_0_1_n_n.lhsIdx (ix2 r d) ((contrEquiv1 dot_S1024x384_S384x256_S1024x256_1_0_0_1_n_n 384 rfl rfl).symm k) = ix2 r k := funext fun ax => Fin.ext (by
    match ax with
    | ⟨0, _⟩ => exact lhs_0 _ _
    | ⟨1, _⟩ => exact (lhs_1 _ _).trans hk)
  have er : dot_S1024x384_S384x256_S1024x256_1_0_0_1_n_n.rhsIdx (ix2 r d) ((contrEquiv1 dot_S1024x384_S384x256_S1024x256_1_0_0_1_n_n 384 rfl rfl).symm k) = ix2 k d := funext fun ax => Fin.ext (by
    match ax with
    | ⟨0, _⟩ => exact (rhs_0 _ _).trans hk
    | ⟨1, _⟩ => exact rhs_1 _ _)
  rw [el, er]

end Region1

/-- Row `r`, channel `d` of what the body leaves in the output block, from the seven input blocks. -/
theorem out1_7_apply (x0 : Vec Ideal S1x1024x384 .f32) (x1 x2 x3 x4 : Vec Ideal S1x384 .f32) (x5 : Vec Ideal S384x256 .f32)
    (x6 : Vec Ideal S1x256 .f32) (r : Fin 1024) (d : Fin 256) :
    out1_7 x0 x1 x2 x3 x4 x5 x6 (ix3 0 r d)
      = hiddenPt2 (fun e => x0 (ix3 0 r e)) (row x1) (row x2) (row x3) (row x4) (fam2T x5) (row x6) d := by
  rw [Region1.out1_7_eq_pay]
  unfold k1_pay1
  simp only [shapeCast_self]
  -- the unit axis cast away and back; the bias row broadcast over the rows; the product as a sum over the 384 channels
  rw [shapeCast_ab_1ab_apply, addf_apply, broadcastTo_1b_ab_apply, Region1.product_apply]
  unfold hiddenPt2 linear
  congr 1
  refine Finset.sum_congr rfl fun e _ => ?_
  -- one factor of the sum: the normalised, rectified entry (r, e) of the input block, the four rows read at channel e
  rw [truncf_apply, truncf_apply, maximumf_apply, addf_apply, mulf_apply, mulf_apply, subf_apply,
    shapeCast_1ab_ab_apply, broadcastTo_1b_ab_apply, broadcastTo_1b_ab_apply, broadcastTo_1b_ab_apply, broadcastTo_1b_ab_apply]
  rfl

variable (V : (c : Dev nD) → (b : Ref sig .tc) → Buf (Elt Ideal) ((c : Thread nD τ).loc b))

namespace Region1

/-! ## From blocks to the array -/

/-- The second layer's output over all points, as one function of the seven arrays. -/
abbrev layer2 (A0 : S16x4096x384.Idx → EReal) (A1 A2 A3 A4 : S1x384.Idx → EReal) (A5 : S384x256.Idx → EReal)
    (A6 : S1x256.Idx → EReal) : S16x4096x256.Idx → EReal :=
  arr3 (fun b n => hiddenPt2 (fam3 A0 b n) (row A1) (row A2) (row A3) (row A4) (fam2T A5) (row A6))

/-- The index maps over the grid of 16 × 4 points: the input block of the first layer's output and the output block
    sit at the same cloud and the same quarter of its points, on the whole channel axis; each small array is taken whole. -/
theorem index_facts : ∀ t : Fin cfg1.N,
    win1_0.index t (0 : Fin 3) = win1_7.index t (0 : Fin 3)
    ∧ win1_0.index t (1 : Fin 3) = win1_7.index t (1 : Fin 3)
    ∧ win1_0.index t (2 : Fin 3) = 0
    ∧ win1_7.index t (2 : Fin 3) = 0
    ∧ win1_7.index t (0 : Fin 3) < 16
    ∧ win1_7.index t (1 : Fin 3) < 4
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- Every (cloud, quarter) pair is some point's output block. -/
theorem index_onto : ∀ (q0 : Fin 16) (q1 : Fin 4), ∃ t : Fin cfg1.N, win1_7.index t = ![q0.val, q1.val, 0] :=
  (by decide +kernel : ∀ (q0 : Fin 16) (q1 : Fin 4), ∃ t : Fin grid1.N, win1_7.index t = ![q0.val, q1.val, 0])

/-- One entry of the output block, when the first input block is rows `nb · 1024 …` of cloud `b` of the array `A0` and the
    six small blocks are their arrays: the second layer at that point and channel. -/
theorem block_entry (A0 : S16x4096x384.Idx → EReal) (A1 A2 A3 A4 : S1x384.Idx → EReal) (A5 : S384x256.Idx → EReal)
    (A6 : S1x256.Idx → EReal)
    (x0 : Vec Ideal S1x1024x384 .f32) (x1 x2 x3 x4 : Vec Ideal S1x384 .f32) (x5 : Vec Ideal S384x256 .f32)
    (x6 : Vec Ideal S1x256 .f32) (b nb : Nat)
    (h0 : ∀ (r : Fin 1024) (e : Fin 384) (k : S16x4096x384.Idx), (k 0).val = b → (k 1).val = nb * 1024 + r.val → (k 2).val = e.val →
      x0 (ix3 0 r e) = A0 k)
    (h1 : x1 = A1) (h2 : x2 = A2) (h3 : x3 = A3) (h4 : x4 = A4) (h5 : x5 = A5) (h6 : x6 = A6)
    (y : S1x1024x256.Idx) (i : S16x4096x256.Idx) (hi0 : (i 0).val = b) (hi1 : (i 1).val = nb * 1024 + (y 1).val)
    (hi2 : (i 2).val = (y 2).val) :
    out1_7 x0 x1 x2 x3 x4 x5 x6 y = layer2 A0 A1 A2 A3 A4 A5 A6 i := by
  obtain ⟨u, r, d, rfl⟩ : ∃ (u : Fin 1) (r : Fin 1024) (d : Fin 256), y = ix3 u r d := ⟨y 0, y 1, y 2, eq_ix3 y⟩
  obtain ⟨p, n, q, rfl⟩ : ∃ (p : Fin 16) (n : Fin 4096) (q : Fin 256), i = ix3 p n q := ⟨i 0, i 1, i 2, eq_ix3 i⟩
  obtain rfl : u = 0 := Subsingleton.elim _ _
  obtain rfl : q = d := Fin.ext hi2
  subst h1 h2 h3 h4 h5 h6
  rw [out1_7_apply]
  show hiddenPt2 (fun e => x0 (ix3 0 r e)) _ _ _ _ _ _ q = hiddenPt2 (fun e => A0 (ix3 p n e)) _ _ _ _ _ _ q
  rw [show (fun e => x0 (ix3 0 r e)) = fun e => A0 (ix3 p n e) from funext fun e => h0 r e (ix3 p n e) hi0 hi1 rfl]

/-- What point `t` writes back is its block of `layer2` of the arrays the region finds: the first input block is the
    same rows of the first layer's output (block index × block size + the coordinate inside the block, axis by axis),
    the six small blocks are their whole arrays. -/
theorem flushed_eq (c : Dev nD) (t : Fin cfg1.N) :
    (dat1 (F := Ideal) V c).flushed 7 t = ((cfg1.win 7).blk t).view.read (Elt Ideal)
      (layer2 (V c main_v8) (V c main_v12) (V c main_v20) (V c main_v4) (V c main_v5) (V c main_v1) (V c main_v3)) := by
  show (cfg1.win 7).cut (grid1.coords t) ((dat1 V c).after 7 t) = _
  rw [after1_7]
  obtain ⟨e00, e01, e02, e72, l0, l1, ⟨a10, a11⟩, ⟨a20, a21⟩, ⟨a30, a31⟩, ⟨a40, a41⟩, ⟨a50, a51⟩, ⟨a60, a61⟩⟩ := index_facts t
  funext y
  show out1_7 (iblk1 V c 0 t) (iblk1 V c 1 t) (iblk1 V c 2 t) (iblk1 V c 3 t) (iblk1 V c 4 t) (iblk1 V c 5 t) (iblk1 V c 6 t) y
    = layer2 (V c main_v8) (V c main_v12) (V c main_v20) (V c main_v4) (V c main_v5) (V c main_v1) (V c main_v3) (((cfg1.win 7).blk t).view.emb y)
  refine block_entry (V c main_v8) (V c main_v12) (V c main_v20) (V c main_v4) (V c main_v5) (V c main_v1) (V c main_v3)
    (iblk1 V c 0 t) (iblk1 V c 1 t) (iblk1 V c 2 t) (iblk1 V c 3 t) (iblk1 V c 4 t) (iblk1 V c 5 t) (iblk1 V c 6 t)
    (win1_7.index t (0 : Fin 3)) (win1_7.index t (1 : Fin 3)) ?_ ?_ ?_ ?_ ?_ ?_ ?_ y (((cfg1.win 7).blk t).view.emb y) ?_ ?_ ?_
  · intro r e k hk0 hk1 hk2
    show V c main_v8 (((cfg1.win 0).blk t).view.emb (ix3 0 r e)) = V c main_v8 k
    refine congrArg (V c main_v8) (funext fun a => Fin.ext ?_)
    match a with
    | ⟨0, _⟩ => show win1_0.index t (0 : Fin 3) * 1 + 1 * 0 = (k 0).val; omega
    | ⟨1, _⟩ => show win1_0.index t (1 : Fin 3) * 1024 + 1 * r.val = (k 1).val; omega
    | ⟨2, _⟩ => show win1_0.index t (2 : Fin 3) * 384 + 1 * e.val = (k 2).val; omega
  · funext j
    show V c main_v12 (((cfg1.win 1).blk t).view.emb j) = V c main_v12 j
    refine congrArg (V c main_v12) (funext fun a => Fin.ext ?_)
    match a with
    | ⟨0, _⟩ => show win1_1.index t (0 : Fin 2) * 1 + 1 * (j 0).val = (j 0).val; omega
    | ⟨1, _⟩ => show win1_1.index t (1 : Fin 2) * 384 + 1 * (j 1).val = (j 1).val; omega
  · funext j
    show V c main_v20 (((cfg1.win 2).blk t).view.emb j) = V c main_v20 j
    refine congrArg (V c main_v20) (funext fun a => Fin.ext ?_)
    match a with
    | ⟨0, _⟩ => show win1_2.index t (0 : Fin 2) * 1 + 1 * (j 0).val = (j 0).val; omega
    | ⟨1, _⟩ => show win1_2.index t (1 : Fin 2) * 384 + 1 * (j 1).val = (j 1).val; omega
  · funext j
    show V c main_v4 (((cfg1.win 3).blk t).view.emb j) = V c main_v4 j
    refine congrArg (V c main_v4) (funext fun a => Fin.ext ?_)
    match a with
    | ⟨0, _⟩ => show win1_3.index t (0 : Fin 2) * 1 + 1 * (j 0).val = (j 0).val; omega
    | ⟨1, _⟩ => show win1_3.index t (1 : Fin 2) * 384 + 1 * (j 1).val = (j 1).val; omega
  · funext j
    show V c main_v5 (((cfg1.win 4).blk t).view.emb j) = V c main_v5 j
    refine congrArg (V c main_v5) (funext fun a => Fin.ext ?_)
    match a with
    | ⟨0, _⟩ => show win1_4.index t (0 : Fin 2) * 1 + 1 * (j 0).val = (j 0).val; omega
    | ⟨1, _⟩ => show win1_4.index t (1 : Fin 2) * 384 + 1 * (j 1).val = (j 1).val; omega
  · funext j
    show V c main_v1 (((cfg1.win 5).blk t).view.emb j) = V c main_v1 j
    refine congrArg (V c main_v1) (funext fun a => Fin.ext ?_)
    match a with
    | ⟨0, _⟩ => show win1_5.index t (0 : Fin 2) * 384 + 1 * (j 0).val = (j 0).val; omega
    | ⟨1, _⟩ => show win1_5.index t (1 : Fin 2) * 256 + 1 * (j 1).val = (j 1).val; omega
  · funext j
    show V c main_v3 (((cfg1.win 6).blk t).view.emb j) = V c main_v3 j
    refine congrArg (V c main_v3) (funext fun a => Fin.ext ?_)
    match a with
    | ⟨0, _⟩ => show win1_6.index t (0 : Fin 2) * 1 + 1 * (j 0).val = (j 0).val; omega
    | ⟨1, _⟩ => show win1_6.index t (1 : Fin 2) * 256 + 1 * (j 1).val = (j 1).val; omega
  · show win1_7.index t (0 : Fin 3) * 1 + 1 * (y 0).val = win1_7.index t (0 : Fin 3)
    have hy : (y 0).val < 1 := (y 0).isLt
    omega
  · show win1_7.index t (1 : Fin 3) * 1024 + 1 * (y 1).val = win1_7.index t (1 : Fin 3) * 1024 + (y 1).val
    omega
  · show win1_7.index t (2 : Fin 3) * 256 + 1 * (y 2).val = (y 2).val
    omega

/-- An index of the output array lies in point `t`'s block iff, axis by axis, its coordinate is within one block size of
    the block's offset. -/
theorem mem_block (t : Fin cfg1.N) (i : S16x4096x256.Idx) :
    i ∈ ((cfg1.win 7).blk t).view.set ↔ ∀ a : Fin 3, win1_7.index t a * S1x1024x256.size a ≤ (i a).val
      ∧ (i a).val < win1_7.index t a * S1x1024x256.size a + S1x1024x256.size a := by
  show i ∈ ((View.whole main_v21).slice (win1_7.rect t)).set ↔ _
  rw [View.set_slice_whole, Rect.mem_set_unit]
  exact Iff.rfl

/-- Every index of the output array is written back by some point: row `n` of cloud `b` by the point `(b, n / 1024)`. -/
theorem covered (i : S16x4096x256.Idx) :
    ∃ t : Fin cfg1.N, (cfg1.win 7).flush t = true ∧ i ∈ ((cfg1.win 7).blk t).view.set := by
  have hi0 : (i 0).val < 16 := (i 0).isLt
  have hi1 : (i 1).val < 4096 := (i 1).isLt
  have hi2 : (i 2).val < 256 := (i 2).isLt
  obtain ⟨t, ht⟩ := index_onto ⟨(i 0).val, hi0⟩ ⟨(i 1).val / 1024, by omega⟩
  have q0 : win1_7.index t (0 : Fin 3) = (i 0).val := congrFun ht 0
  have q1 : win1_7.index t (1 : Fin 3) = (i 1).val / 1024 := congrFun ht 1
  have q2 : win1_7.index t (2 : Fin 3) = 0 := congrFun ht 2
  refine ⟨t, flush1_7 t, ?_⟩
  rw [mem_block]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 1024 ≤ (i 1).val ∧ (i 1).val < win1_7.index t (1 : Fin 3) * 1024 + 1024; omega
  | ⟨2, _⟩ => show win1_7.index t (2 : Fin 3) * 256 ≤ (i 2).val ∧ (i 2).val < win1_7.index t (2 : Fin 3) * 256 + 256; omega

end Region1

/-- After region 1 its output array is the second layer's output over all points, of the arrays the region finds. -/
theorem region1_value (c : Dev nD) :
    ((dat1 (F := Ideal) V c).arrAt 7 cfg1.N : S16x4096x256.Idx → EReal)
      = arr3 (fun b n => hiddenPt2 (fam3 (V c main_v8 : S16x4096x384.Idx → EReal) b n)
          (row (V c main_v12 : S1x384.Idx → EReal)) (row (V c main_v20 : S1x384.Idx → EReal))
          (row (V c main_v4 : S1x384.Idx → EReal)) (row (V c main_v5 : S1x384.Idx → EReal))
          (fam2T (V c main_v1 : S384x256.Idx → EReal)) (row (V c main_v3 : S1x256.Idx → EReal))) := by
  exact (dat1 (F := Ideal) V c).arrAt_eq_of_cover 7
    (Region1.layer2 (V c main_v8) (V c main_v12) (V c main_v20) (V c main_v4) (V c main_v5) (V c main_v1) (V c main_v3))
    (fun t _ => Region1.flushed_eq V c t) Region1.covered

end Cert.KernelIdeal.Val

end
-- ==== Proof.Region2.lean ====
/-
  The third kernel normalises pointwise. A block is 2048 consecutive points of one cloud with all 256 channels: grid
  point (b, nb) takes points 2048·nb … 2048·nb + 2047 of cloud b, and with it the four whole one-row arrays (mean,
  variance, scale, shift). Entry (r, d) of the output block depends only on entry (r, d) of the input block and on
  channel d of the four rows: (x − μ) · 1/√(σ² + ε) · γ + β. The 32 output blocks tile the [16, 4096, 256] array, point
  n of cloud b lying in the block of grid point (b, n / 2048), so after the region the array is that formula at every
  (b, n, d) of the arrays the region finds.
-/
import proofs.«149719_j46755013984985_1_alg».proof.Proof.Gen.KernelIdeal.Frame
import proofs.«149719_j46755013984985_1_alg».proof.Proof.Spec
import Idealize.ShloMosaic.Lib.Pipeline.Value
import Idealize.ShloMosaic.Lib.ValueLayout

set_option maxRecDepth 16384

noncomputable section

namespace Cert.KernelIdeal.Val

open Cert.KernelIdeal Cert.KernelIdeal.Gen PointFeature
open Idealize.ShloMosaic Idealize.ShloMosaic.ValueIdx Idealize.ShloMosaic.TcCoe Idealize.SL.Sem
open Idealize.ShloMosaic.Pipeline (Dat)

/-- The zero offsets of a rank-3 whole-block access. -/
theorem region2_zero3 : (![0, 0, 0] : Fin 3 → Nat) = fun _ => 0 := funext fun a => by fin_cases a <;> rfl
/-- The zero offsets of a rank-2 whole-row access. -/
theorem region2_zero2 : (![0, 0] : Fin 2 → Nat) = fun _ => 0 := funext fun a => by fin_cases a <;> rfl

/-- A [1, 2048, 256] block viewed as [2048, 256]: entry (r, d) is entry (0, r, d), the two having the same
    row-major position 256·r + d. -/
theorem region2_dropUnit_apply (x : FVec Ideal S1x2048x256 .f32) (h : S1x2048x256.ShapeCasts S2048x256)
    (r : Fin 2048) (d : Fin 256) : shapeCast S2048x256 x h (ix2 r d) = x (ix3 0 r d) := by
  refine shapeCast_apply x h (ix2 r d) (ix3 0 r d) ?_
  rw [Shape.rowMajor_val_three, Shape.rowMajor_val_two]
  simp

/-- The way back: entry (0, r, d) of a [2048, 256] value viewed as [1, 2048, 256] is its entry (r, d). -/
theorem region2_addUnit_apply (y : FVec Ideal S2048x256 .f32) (h : S2048x256.ShapeCasts S1x2048x256)
    (r : Fin 2048) (d : Fin 256) : shapeCast S1x2048x256 y h (ix3 0 r d) = y (ix2 r d) := by
  refine shapeCast_apply y h (ix3 0 r d) (ix2 r d) ?_
  rw [Shape.rowMajor_val_three, Shape.rowMajor_val_two]
  simp

/-- A one-row array repeated down 2048 rows: entry (r, d) is the row's entry d. -/
theorem region2_rowBroadcast_apply (x : FVec Ideal S1x256 .f32) (h : S1x256.Broadcasts S2048x256)
    (r : Fin 2048) (d : Fin 256) : broadcastTo S2048x256 x h (ix2 r d) = x (ix2 0 d) := by
  refine broadcastTo_apply x h (ix2 r d) (ix2 0 d) fun a => ?_
  match a with
  | ⟨0, _⟩ => rfl
  | ⟨1, _⟩ => rfl

/-- Row `r`, channel `d` of what the body leaves in the output block, from the five input blocks. -/
theorem out2_5_apply (x0 : Vec Ideal S1x2048x256 .f32) (x1 x2 x3 x4 : Vec Ideal S1x256 .f32) (r : Fin 2048) (d : Fin 256) :
    out2_5 x0 x1 x2 x3 x4 (ix3 0 r d)
      = affinePt (fun e => x0 (ix3 0 r e)) (row x1) (row x2) (row x3) (row x4) d := by
  -- the one store covers the block, so the block is the stored value; the loads are the whole input blocks
  unfold out2_5
  rw [View.canon_unit_zero region2_zero3]
  simp only [View.ld_unit_zero (S := S1x2048x256) region2_zero3, View.ld_unit_zero (S := S1x256) region2_zero2]
  unfold k2_pay1
  -- every operation is pointwise once the rows are repeated down the block: read each at (r, d)
  refine (region2_addUnit_apply _ _ r d).trans ?_
  simp only [addf_apply, mulf_apply, subf_apply, region2_rowBroadcast_apply, region2_dropUnit_apply, shapeCast_self]
  rfl

/-- The index maps over the 32 grid points: point t is (t / 2, t % 2); the input and output blocks of the big array
    sit at block (t / 2, t % 2, 0); each of the four rows is taken whole, at block (0, 0). -/
theorem region2_index_facts : ∀ t : Fin cfg2.N,
    win2_0.index t (0 : Fin 3) = t.val / 2 ∧ win2_0.index t (1 : Fin 3) = t.val % 2 ∧ win2_0.index t (2 : Fin 3) = 0
    ∧ win2_5.index t (0 : Fin 3) = t.val / 2 ∧ win2_5.index t (1 : Fin 3) = t.val % 2 ∧ win2_5.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- One block, over plain arrays: if the input block holds points `n0 … n0 + 2047` of cloud `b` of `A` and the four
    row blocks are the rows `M`, `Vr`, `Gm`, `Be`, then entry `y` of the output block is the normalised array at the
    index `k` that `y` stands for: cloud `b`, point `n0 + y 1`, channel `y 2`. -/
theorem region2_block (x0 : Vec Ideal S1x2048x256 .f32) (x1 x2 x3 x4 : Vec Ideal S1x256 .f32)
    (A : S16x4096x256.Idx → EReal) (M Vr Gm Be : S1x256.Idx → EReal)
    (b : Fin 16) (n0 : Nat) (hn : n0 + 2048 ≤ 4096)
    (h0 : ∀ (r : Fin 2048) (e : Fin 256), x0 (ix3 0 r e) = A (ix3 b ⟨n0 + r.val, by omega⟩ e))
    (h1 : x1 = M) (h2 : x2 = Vr) (h3 : x3 = Gm) (h4 : x4 = Be)
    (y : S1x2048x256.Idx) (k : S16x4096x256.Idx)
    (hk0 : (k 0).val = b.val) (hk1 : (k 1).val = n0 + (y 1).val) (hk2 : (k 2).val = (y 2).val) :
    out2_5 x0 x1 x2 x3 x4 y = arr3 (fun b n => affinePt (fam3 A b n) (row M) (row Vr) (row Gm) (row Be)) k := by
  subst h1 h2 h3 h4
  have y0 : (y 0).val < 1 := (y 0).isLt
  have y1 : (y 1).val < 2048 := (y 1).isLt
  have y2 : (y 2).val < 256 := (y 2).isLt
  -- the block's index by its coordinates (r, d), the leading one being 0
  obtain ⟨r, d, rfl⟩ : ∃ (r : Fin 2048) (d : Fin 256), y = ix3 0 r d := ⟨⟨(y 1).val, y1⟩, ⟨(y 2).val, y2⟩, by
    funext a; apply Fin.ext
    match a with
    | ⟨0, _⟩ => show (y 0).val = 0; omega
    | ⟨1, _⟩ => rfl
    | ⟨2, _⟩ => rfl⟩
  have hk1' : (k 1).val = n0 + r.val := hk1
  have hk2' : (k 2).val = d.val := hk2
  -- the array's index by its coordinates (b, n0 + r, d)
  have hk : k = ix3 b ⟨n0 + r.val, Nat.lt_of_lt_of_le (Nat.add_lt_add_left r.isLt n0) hn⟩ d := by
    funext a; apply Fin.ext
    match a with
    | ⟨0, _⟩ => exact hk0
    | ⟨1, _⟩ => exact hk1'
    | ⟨2, _⟩ => exact hk2'
  rw [hk, out2_5_apply]
  -- both sides are the same formula of the point's 256 channels, which agree by the hypothesis on the input block
  show affinePt _ _ _ _ _ _ = affinePt (fun e => A (ix3 b _ e)) _ _ _ _ _
  congr 1
  funext e
  exact h0 r e

variable (V : (c : Dev nD) → (b : Ref sig .tc) → Buf (Elt Ideal) ((c : Thread nD τ).loc b))

/-- The second normalisation, at every point and channel, of the array the region finds, with the mean, variance,
    scale and shift rows it finds. -/
abbrev region2_normed (c : Dev nD) : S16x4096x256.Idx → EReal :=
  arr3 (fun b n => affinePt (fam3 (V c main_v21 : S16x4096x256.Idx → EReal) b n)
          (row (V c main_v25 : S1x256.Idx → EReal)) (row (V c main_v33 : S1x256.Idx → EReal))
          (row (V c main_v6 : S1x256.Idx → EReal)) (row (V c main_v7 : S1x256.Idx → EReal)))

/-- What grid point `t` writes back is block `t` of the normalised array: its input block is the same rectangle of
    the input array (a block's coordinate is block index × block size + the coordinate inside the block), and the four
    rows are the whole row arrays. -/
theorem region2_flushed_eq (c : Dev nD) (t : Fin cfg2.N) :
    (dat2 (F := Ideal) V c).flushed 5 t = ((cfg2.win 5).blk t).view.read (Elt Ideal) (region2_normed V c) := by
  show (cfg2.win 5).cut (grid2.coords t) ((dat2 V c).after 5 t) = _
  rw [after2_5]
  obtain ⟨a0, a1, a2, o0, o1, o2, m0, m1, v0, v1, g0, g1, s0, s1⟩ := region2_index_facts t
  have hN : t.val < 32 := lt_of_lt_of_eq t.isLt N_2
  funext y
  show out2_5 (iblk2 V c 0 t) (iblk2 V c 1 t) (iblk2 V c 2 t) (iblk2 V c 3 t) (iblk2 V c 4 t) y
    = region2_normed V c (((cfg2.win 5).blk t).view.emb y)
  refine region2_block (iblk2 V c 0 t) (iblk2 V c 1 t) (iblk2 V c 2 t) (iblk2 V c 3 t) (iblk2 V c 4 t)
    (V c main_v21) (V c main_v25) (V c main_v33) (V c main_v6) (V c main_v7)
    ⟨t.val / 2, by omega⟩ (t.val % 2 * 2048) (by omega) ?_ ?_ ?_ ?_ ?_ y (((cfg2.win 5).blk t).view.emb y) ?_ ?_ ?_
  · -- the input block: cloud t / 2, points 2048 · (t % 2) + r
    intro r e
    show V c main_v21 (((cfg2.win 0).blk t).view.emb (ix3 0 r e)) = V c main_v21 _
    congr 1
    funext a; apply Fin.ext
    match a with
    | ⟨0, _⟩ => show win2_0.index t (0 : Fin 3) * 1 + 1 * 0 = t.val / 2; rw [a0]; omega
    | ⟨1, _⟩ => show win2_0.index t (1 : Fin 3) * 2048 + 1 * r.val = t.val % 2 * 2048 + r.val; rw [a1]; omega
    | ⟨2, _⟩ => show win2_0.index t (2 : Fin 3) * 256 + 1 * e.val = e.val; rw [a2]; omega
  · -- the mean row, whole
    funext z
    show V c main_v25 (((cfg2.win 1).blk t).view.emb z) = V c main_v25 z
    congr 1
    funext a; apply Fin.ext
    match a with
    | ⟨0, _⟩ => show win2_1.index t (0 : Fin 2) * 1 + 1 * (z 0).val = (z 0).val; rw [m0]; omega
    | ⟨1, _⟩ => show win2_1.index t (1 : Fin 2) * 256 + 1 * (z 1).val = (z 1).val; rw [m1]; omega
  · -- the variance row, whole
    funext z
    show V c main_v33 (((cfg2.win 2).blk t).view.emb z) = V c main_v33 z
    congr 1
    funext a; apply Fin.ext
    match a with
    | ⟨0, _⟩ => show win2_2.index t (0 : Fin 2) * 1 + 1 * (z 0).val = (z 0).val; rw [v0]; omega
    | ⟨1, _⟩ => show win2_2.index t (1 : Fin 2) * 256 + 1 * (z 1).val = (z 1).val; rw [v1]; omega
  · -- the scale row, whole
    funext z
    show V c main_v6 (((cfg2.win 3).blk t).view.emb z) = V c main_v6 z
    congr 1
    funext a; apply Fin.ext
    match a with
    | ⟨0, _⟩ => show win2_3.index t (0 : Fin 2) * 1 + 1 * (z 0).val = (z 0).val; rw [g0]; omega
    | ⟨1, _⟩ => show win2_3.index t (1 : Fin 2) * 256 + 1 * (z 1).val = (z 1).val; rw [g1]; omega
  · -- the shift row, whole
    funext z
    show V c main_v7 (((cfg2.win 4).blk t).view.emb z) = V c main_v7 z
    congr 1
    funext a; apply Fin.ext
    match a with
    | ⟨0, _⟩ => show win2_4.index t (0 : Fin 2) * 1 + 1 * (z 0).val = (z 0).val; rw [s0]; omega
    | ⟨1, _⟩ => show win2_4.index t (1 : Fin 2) * 256 + 1 * (z 1).val = (z 1).val; rw [s1]; omega
  · -- where entry y of the output block sits in the array: cloud t / 2,
    have h : (y 0).val < 1 := (y 0).isLt
    show win2_5.index t (0 : Fin 3) * 1 + 1 * (y 0).val = t.val / 2
    rw [o0]; omega
  · -- point 2048 · (t % 2) + y 1,
    show win2_5.index t (1 : Fin 3) * 2048 + 1 * (y 1).val = t.val % 2 * 2048 + (y 1).val
    rw [o1]; omega
  · -- channel y 2
    show win2_5.index t (2 : Fin 3) * 256 + 1 * (y 2).val = (y 2).val
    rw [o2]; omega

/-- An index of the array lies in point `t`'s output block iff, on each axis, it lies in the block's range there. -/
theorem region2_mem_blk (t : Fin cfg2.N) (i : S16x4096x256.Idx) :
    i ∈ ((cfg2.win 5).blk t).view.set ↔ ∀ a : Fin 3, win2_5.index t a * S1x2048x256.size a ≤ (i a).val
      ∧ (i a).val < win2_5.index t a * S1x2048x256.size a + S1x2048x256.size a := by
  show i ∈ ((View.whole main_v34).slice (win2_5.rect t)).set ↔ _
  rw [View.set_slice_whole, Rect.mem_set_unit]
  exact Iff.rfl

/-- The blocks cover the array: point `n` of cloud `b` is written by grid point (b, n / 2048), the 2·b + n / 2048-th. -/
theorem region2_covered (i : S16x4096x256.Idx) :
    ∃ t : Fin cfg2.N, (cfg2.win 5).flush t = true ∧ i ∈ ((cfg2.win 5).blk t).view.set := by
  have h0 : (i 0).val < 16 := (i 0).isLt
  have h1 : (i 1).val < 4096 := (i 1).isLt
  have h2 : (i 2).val < 256 := (i 2).isLt
  obtain ⟨t, ht⟩ : ∃ t : Fin cfg2.N, t.val = (i 0).val * 2 + (i 1).val / 2048 :=
    ⟨⟨(i 0).val * 2 + (i 1).val / 2048, lt_of_lt_of_eq (by omega) N_2.symm⟩, rfl⟩
  obtain ⟨-, -, -, o0, o1, o2, -⟩ := region2_index_facts t
  refine ⟨t, flush2_5 t, ?_⟩
  rw [region2_mem_blk]
  intro a
  match a with
  | ⟨0, _⟩ =>
    show win2_5.index t (0 : Fin 3) * 1 ≤ (i 0).val ∧ (i 0).val < win2_5.index t (0 : Fin 3) * 1 + 1
    rw [o0]; omega
  | ⟨1, _⟩ =>
    show win2_5.index t (1 : Fin 3) * 2048 ≤ (i 1).val ∧ (i 1).val < win2_5.index t (1 : Fin 3) * 2048 + 2048
    rw [o1]; omega
  | ⟨2, _⟩ =>
    show win2_5.index t (2 : Fin 3) * 256 ≤ (i 2).val ∧ (i 2).val < win2_5.index t (2 : Fin 3) * 256 + 256
    rw [o2]; omega

/-- After region 2 its output array is the normalisation, point by point, of the arrays the region finds. -/
theorem region2_value (c : Dev nD) :
    ((dat2 (F := Ideal) V c).arrAt 5 cfg2.N : S16x4096x256.Idx → EReal)
      = arr3 (fun b n => affinePt (fam3 (V c main_v21 : S16x4096x256.Idx → EReal) b n)
          (row (V c main_v25 : S1x256.Idx → EReal)) (row (V c main_v33 : S1x256.Idx → EReal))
          (row (V c main_v6 : S1x256.Idx → EReal)) (row (V c main_v7 : S1x256.Idx → EReal))) :=
  -- every grid point writes its block of the normalised array, and the blocks cover the array
  (dat2 (F := Ideal) V c).arrAt_eq_of_cover 5 (region2_normed V c) (fun t _ => region2_flushed_eq V c t) region2_covered

end Cert.KernelIdeal.Val

end
-- ==== Proof.HostGlue.lean ====
/-
  What each of the three regions finds in the arrays it reads. Between the regions the host only moves entries or takes
  per-channel statistics: a weight matrix transposed reads at (q, p) the launched matrix at (p, q); a vector laid as a
  one-row matrix reads at (0, p) the vector at p; a buffer that no host operation writes and no region owns keeps its
  contents, and a region's output buffer holds what its write-backs fold to. The mean row at channel d is the sum over
  all 16 · 4096 points (the host's reduction, never opened) divided by their count; the variance row is the same
  statistic of the squared deviations, where entry (b, n, d) of the deviation sees the mean row at d alone.
-/
import proofs.«149719_j46755013984985_1_alg».proof.Proof.Gen.KernelIdeal.Frame
import proofs.«149719_j46755013984985_1_alg».proof.Proof.Spec
import Idealize.ShloMosaic.Lib.Pipeline.Value
import Idealize.ShloMosaic.Lib.ValueLayout
import Idealize.ShloMosaic.Lib.IdealHost

set_option maxRecDepth 16384

noncomputable section

namespace Cert.KernelIdeal.Val

open Cert.KernelIdeal Cert.KernelIdeal.Gen PointFeature
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## The three stretches of host operations, from any contents `W` of the buffers -/

namespace Glue

/-- A buffer that no operation of a stretch writes holds after the stretch what it held before: the stretch's
    result buffers, read off its literal list, are all other references. -/
local macro "unwritten_by " ops:ident : tactic =>
  `(tactic| (refine StableHlo.after_of_forall_not_mem _ _ (List.forall_iff_forall_mem.mp ?_)
             simp only [$ops:ident, List.Forall, StableHlo.nullary_writes, StableHlo.unary_writes,
               StableHlo.binary_writes, StableHlo.reshape_writes, Finset.mem_singleton]
             repeat' apply And.intro
             all_goals exact StableHlo.devRef_ne_of_ne (by decide)))

/-! ### Before region 0: two transposes and six vectors laid as rows -/

section Stretch0
variable (W : Valuation τ sig (Elt Ideal))

theorem keep0_arg0 : StableHlo.after hostOps0 W (Proc.devRef .tc main_arg0) = W (Proc.devRef .tc main_arg0) := by
  unwritten_by hostOps0
theorem keep0_arg1 : StableHlo.after hostOps0 W (Proc.devRef .tc main_arg1) = W (Proc.devRef .tc main_arg1) := by
  unwritten_by hostOps0
theorem keep0_arg2 : StableHlo.after hostOps0 W (Proc.devRef .tc main_arg2) = W (Proc.devRef .tc main_arg2) := by
  unwritten_by hostOps0
theorem keep0_arg3 : StableHlo.after hostOps0 W (Proc.devRef .tc main_arg3) = W (Proc.devRef .tc main_arg3) := by
  unwritten_by hostOps0

theorem s0_v0 : (StableHlo.after hostOps0 W (Proc.devRef .tc main_v0) : S384x384.Idx → EReal)
    = transpose S384x384 [1, 0] (W (Proc.devRef .tc main_arg4) : S384x384.Idx → EReal) transposes_S384x384_S384x384_1_0 := by
  after_results
theorem s0_v1 : (StableHlo.after hostOps0 W (Proc.devRef .tc main_v1) : S384x256.Idx → EReal)
    = transpose S384x256 [1, 0] (W (Proc.devRef .tc main_arg8) : S256x384.Idx → EReal) transposes_S256x384_S384x256_1_0 := by
  after_results
theorem s0_v2 : (StableHlo.after hostOps0 W (Proc.devRef .tc main_v2) : S1x384.Idx → EReal)
    = shapeCast S1x384 (W (Proc.devRef .tc main_arg5) : S384.Idx → EReal) shapeCasts_S384_S1x384 := by
  after_results; rfl
theorem s0_v3 : (StableHlo.after hostOps0 W (Proc.devRef .tc main_v3) : S1x256.Idx → EReal)
    = shapeCast S1x256 (W (Proc.devRef .tc main_arg9) : S256.Idx → EReal) shapeCasts_S256_S1x256 := by
  after_results; rfl
theorem s0_v4 : (StableHlo.after hostOps0 W (Proc.devRef .tc main_v4) : S1x384.Idx → EReal)
    = shapeCast S1x384 (W (Proc.devRef .tc main_arg6) : S384.Idx → EReal) shapeCasts_S384_S1x384 := by
  after_results; rfl
theorem s0_v5 : (StableHlo.after hostOps0 W (Proc.devRef .tc main_v5) : S1x384.Idx → EReal)
    = shapeCast S1x384 (W (Proc.devRef .tc main_arg7) : S384.Idx → EReal) shapeCasts_S384_S1x384 := by
  after_results; rfl
theorem s0_v6 : (StableHlo.after hostOps0 W (Proc.devRef .tc main_v6) : S1x256.Idx → EReal)
    = shapeCast S1x256 (W (Proc.devRef .tc main_arg10) : S256.Idx → EReal) shapeCasts_S256_S1x256 := by
  after_results; rfl
theorem s0_v7 : (StableHlo.after hostOps0 W (Proc.devRef .tc main_v7) : S1x256.Idx → EReal)
    = shapeCast S1x256 (W (Proc.devRef .tc main_arg11) : S256.Idx → EReal) shapeCasts_S256_S1x256 := by
  after_results; rfl

end Stretch0

/-! ### A channel statistic as the host computes it, over 384 channels -/

/-- Per channel, the sum over all points divided by their number, laid as a row. -/
def rowStat384 (A : S16x4096x384.Idx → EReal) : S1x384.Idx → EReal :=
  shapeCast S1x384
    (Host.divf (F := Ideal)
      (Host.reduceAdd (F := Ideal) A (constant (F := Ideal) S_ .f32 0x00000000#32) reducesTo_S16x4096x384_S384_d0_1 h_S_)
      (broadcastInDim S384 ![] bcast_S_S384 (constant (F := Ideal) S_ .f32 0x47800000#32)))
    shapeCasts_S384_S1x384

/-- Every entry's squared deviation from a row's value at its channel. -/
def sqDevArr384 (A : S16x4096x384.Idx → EReal) (R : S1x384.Idx → EReal) : S16x4096x384.Idx → EReal :=
  mulf (F := Ideal) (φ := .f32)
    (subf (F := Ideal) (φ := .f32) A (broadcastInDim S16x4096x384 ![0, 1, 2] bcast_S1x1x384_S16x4096x384_0_1_2
      (shapeCast S1x1x384 R shapeCasts_S1x384_S1x1x384)))
    (subf (F := Ideal) (φ := .f32) A (broadcastInDim S16x4096x384 ![0, 1, 2] bcast_S1x1x384_S16x4096x384_0_1_2
      (shapeCast S1x1x384 R shapeCasts_S1x384_S1x1x384)))

/-- The row at channel `p` is the channel's sum (the host's reduction, not opened) over the count. -/
theorem rowStat384_row (A : S16x4096x384.Idx → EReal) : row (rowStat384 A) = colMean colSum384 (fam3 A) := by
  funext p
  unfold rowStat384
  refine (shapeCast_a_1a_apply _ _ 0 p).trans ?_
  refine (hostDivf_apply _ _ (ix1 p)).trans ?_
  rw [colSum384_eq, broadcastInDim_scalar_apply]
  rfl

/-- A row broadcast over all points and subtracted, the difference squared: entry `(b, n, d)` sees the row at `d` only. -/
theorem sqDevArr384_eq (A : S16x4096x384.Idx → EReal) (R : S1x384.Idx → EReal) :
    sqDevArr384 A R = arr3 (sqDev (fam3 A) (row R)) := by
  funext j
  obtain ⟨b, n, d, rfl⟩ : ∃ (b : Fin 16) (n : Fin 4096) (d : Fin 384), j = ix3 b n d := ⟨j 0, j 1, j 2, eq_ix3 j⟩
  have hb : broadcastInDim S16x4096x384 ![0, 1, 2] bcast_S1x1x384_S16x4096x384_0_1_2
      (shapeCast S1x1x384 R shapeCasts_S1x384_S1x1x384) (ix3 b n d) = R (ix2 0 d) := by
    refine (broadcastInDim_apply _ _ _ (ix3 b n d) (ix3 (0 : Fin 1) (0 : Fin 1) d) fun a => ?_).trans
      (shapeCast_ab_1ab_apply R _ 0 0 d)
    match a with
    | ⟨0, _⟩ => rfl
    | ⟨1, _⟩ => rfl
    | ⟨2, _⟩ => rfl
  unfold sqDevArr384
  show (A (ix3 b n d) - _) * (A (ix3 b n d) - _) = (A (ix3 b n d) - R (ix2 0 d)) * (A (ix3 b n d) - R (ix2 0 d))
  rw [hb]

/-! ### Between regions 0 and 1: the mean and variance rows of region 0's output -/

section Stretch1
variable (W : Valuation τ sig (Elt Ideal))

theorem keep1_v8 : StableHlo.after hostOps1 W (Proc.devRef .tc main_v8) = W (Proc.devRef .tc main_v8) := by
  unwritten_by hostOps1
theorem keep1_v1 : StableHlo.after hostOps1 W (Proc.devRef .tc main_v1) = W (Proc.devRef .tc main_v1) := by
  unwritten_by hostOps1
theorem keep1_v3 : StableHlo.after hostOps1 W (Proc.devRef .tc main_v3) = W (Proc.devRef .tc main_v3) := by
  unwritten_by hostOps1
theorem keep1_v4 : StableHlo.after hostOps1 W (Proc.devRef .tc main_v4) = W (Proc.devRef .tc main_v4) := by
  unwritten_by hostOps1
theorem keep1_v5 : StableHlo.after hostOps1 W (Proc.devRef .tc main_v5) = W (Proc.devRef .tc main_v5) := by
  unwritten_by hostOps1
theorem keep1_v6 : StableHlo.after hostOps1 W (Proc.devRef .tc main_v6) = W (Proc.devRef .tc main_v6) := by
  unwritten_by hostOps1
theorem keep1_v7 : StableHlo.after hostOps1 W (Proc.devRef .tc main_v7) = W (Proc.devRef .tc main_v7) := by
  unwritten_by hostOps1

theorem s1_v12 : (StableHlo.after hostOps1 W (Proc.devRef .tc main_v12) : S1x384.Idx → EReal)
    = rowStat384 (W (Proc.devRef .tc main_v8)) := by
  after_results; rfl
theorem s1_v20 : (StableHlo.after hostOps1 W (Proc.devRef .tc main_v20) : S1x384.Idx → EReal)
    = rowStat384 (sqDevArr384 (W (Proc.devRef .tc main_v8)) (rowStat384 (W (Proc.devRef .tc main_v8)))) := by
  after_results; rfl

/-- The mean row the first normalisation reads. -/
theorem s1_mean : row (StableHlo.after hostOps1 W (Proc.devRef .tc main_v12) : S1x384.Idx → EReal)
    = colMean colSum384 (fam3 (W (Proc.devRef .tc main_v8) : S16x4096x384.Idx → EReal)) := by
  rw [s1_v12]; exact rowStat384_row _
/-- The variance row the first normalisation reads. -/
theorem s1_var : row (StableHlo.after hostOps1 W (Proc.devRef .tc main_v20) : S1x384.Idx → EReal)
    = colVar colSum384 (fam3 (W (Proc.devRef .tc main_v8) : S16x4096x384.Idx → EReal)) := by
  rw [s1_v20, rowStat384_row, sqDevArr384_eq, rowStat384_row]
  rfl

end Stretch1

/-! ### A channel statistic as the host computes it, over 256 channels -/

/-- Per channel, the sum over all points divided by their number, laid as a row. -/
def rowStat256 (A : S16x4096x256.Idx → EReal) : S1x256.Idx → EReal :=
  shapeCast S1x256
    (Host.divf (F := Ideal)
      (Host.reduceAdd (F := Ideal) A (constant (F := Ideal) S_ .f32 0x00000000#32) reducesTo_S16x4096x256_S256_d0_1 h_S_)
      (broadcastInDim S256 ![] bcast_S_S256 (constant (F := Ideal) S_ .f32 0x47800000#32)))
    shapeCasts_S256_S1x256

/-- Every entry's squared deviation from a row's value at its channel. -/
def sqDevArr256 (A : S16x4096x256.Idx → EReal) (R : S1x256.Idx → EReal) : S16x4096x256.Idx → EReal :=
  mulf (F := Ideal) (φ := .f32)
    (subf (F := Ideal) (φ := .f32) A (broadcastInDim S16x4096x256 ![0, 1, 2] bcast_S1x1x256_S16x4096x256_0_1_2
      (shapeCast S1x1x256 R shapeCasts_S1x256_S1x1x256)))
    (subf (F := Ideal) (φ := .f32) A (broadcastInDim S16x4096x256 ![0, 1, 2] bcast_S1x1x256_S16x4096x256_0_1_2
      (shapeCast S1x1x256 R shapeCasts_S1x256_S1x1x256)))

/-- The row at channel `p` is the channel's sum (the host's reduction, not opened) over the count. -/
theorem rowStat256_row (A : S16x4096x256.Idx → EReal) : row (rowStat256 A) = colMean colSum256 (fam3 A) := by
  funext p
  unfold rowStat256
  refine (shapeCast_a_1a_apply _ _ 0 p).trans ?_
  refine (hostDivf_apply _ _ (ix1 p)).trans ?_
  rw [colSum256_eq, broadcastInDim_scalar_apply]
  rfl

/-- A row broadcast over all points and subtracted, the difference squared: entry `(b, n, d)` sees the row at `d` only. -/
theorem sqDevArr256_eq (A : S16x4096x256.Idx → EReal) (R : S1x256.Idx → EReal) :
    sqDevArr256 A R = arr3 (sqDev (fam3 A) (row R)) := by
  funext j
  obtain ⟨b, n, d, rfl⟩ : ∃ (b : Fin 16) (n : Fin 4096) (d : Fin 256), j = ix3 b n d := ⟨j 0, j 1, j 2, eq_ix3 j⟩
  have hb : broadcastInDim S16x4096x256 ![0, 1, 2] bcast_S1x1x256_S16x4096x256_0_1_2
      (shapeCast S1x1x256 R shapeCasts_S1x256_S1x1x256) (ix3 b n d) = R (ix2 0 d) := by
    refine (broadcastInDim_apply _ _ _ (ix3 b n d) (ix3 (0 : Fin 1) (0 : Fin 1) d) fun a => ?_).trans
      (shapeCast_ab_1ab_apply R _ 0 0 d)
    match a with
    | ⟨0, _⟩ => rfl
    | ⟨1, _⟩ => rfl
    | ⟨2, _⟩ => rfl
  unfold sqDevArr256
  show (A (ix3 b n d) - _) * (A (ix3 b n d) - _) = (A (ix3 b n d) - R (ix2 0 d)) * (A (ix3 b n d) - R (ix2 0 d))
  rw [hb]

/-! ### Between regions 1 and 2: the mean and variance rows of region 1's output -/

section Stretch2
variable (W : Valuation τ sig (Elt Ideal))

theorem keep2_v21 : StableHlo.after hostOps2 W (Proc.devRef .tc main_v21) = W (Proc.devRef .tc main_v21) := by
  unwritten_by hostOps2
theorem keep2_v6 : StableHlo.after hostOps2 W (Proc.devRef .tc main_v6) = W (Proc.devRef .tc main_v6) := by
  unwritten_by hostOps2
theorem keep2_v7 : StableHlo.after hostOps2 W (Proc.devRef .tc main_v7) = W (Proc.devRef .tc main_v7) := by
  unwritten_by hostOps2

theorem s2_v25 : (StableHlo.after hostOps2 W (Proc.devRef .tc main_v25) : S1x256.Idx → EReal)
    = rowStat256 (W (Proc.devRef .tc main_v21)) := by
  after_results; rfl
theorem s2_v33 : (StableHlo.after hostOps2 W (Proc.devRef .tc main_v33) : S1x256.Idx → EReal)
    = rowStat256 (sqDevArr256 (W (Proc.devRef .tc main_v21)) (rowStat256 (W (Proc.devRef .tc main_v21)))) := by
  after_results; rfl

/-- The mean row the second normalisation reads. -/
theorem s2_mean : row (StableHlo.after hostOps2 W (Proc.devRef .tc main_v25) : S1x256.Idx → EReal)
    = colMean colSum256 (fam3 (W (Proc.devRef .tc main_v21) : S16x4096x256.Idx → EReal)) := by
  rw [s2_v25]; exact rowStat256_row _
/-- The variance row the second normalisation reads. -/
theorem s2_var : row (StableHlo.after hostOps2 W (Proc.devRef .tc main_v33) : S1x256.Idx → EReal)
    = colVar colSum256 (fam3 (W (Proc.devRef .tc main_v21) : S16x4096x256.Idx → EReal)) := by
  rw [s2_v33, rowStat256_row, sqDevArr256_eq, rowStat256_row]
  rfl

end Stretch2

/-! ### A region's output buffer at its exit -/

/-- Region 0 leaves in its output buffer what its write-backs fold to. -/
theorem W2_v8 (c : Dev nD) :
    (W2 m ρ c (Proc.devRef .tc main_v8) : S16x4096x384.Idx → EReal) = (dat0 (V1 m ρ) c).arrAt 6 cfg0.N :=
  W2_arr m ρ c 6
/-- Region 1 leaves in its output buffer what its write-backs fold to. -/
theorem W4_v21 (c : Dev nD) :
    (W4 m ρ c (Proc.devRef .tc main_v21) : S16x4096x256.Idx → EReal) = (dat1 (V3 m ρ) c).arrAt 7 cfg1.N :=
  W4_arr m ρ c 7

end Glue

open Glue

/-! ## Region 0's entry: the arguments as launched, the first weight matrix transposed, its bias as a row -/

theorem V1_arg0 (c : Dev nD) : V1 m ρ c main_arg0 = m ((c : Thread nD τ).loc main_arg0) :=
  keep0_arg0 (W0 m ρ c)
theorem V1_arg1 (c : Dev nD) : V1 m ρ c main_arg1 = m ((c : Thread nD τ).loc main_arg1) :=
  keep0_arg1 (W0 m ρ c)
theorem V1_arg2 (c : Dev nD) : V1 m ρ c main_arg2 = m ((c : Thread nD τ).loc main_arg2) :=
  keep0_arg2 (W0 m ρ c)
theorem V1_arg3 (c : Dev nD) : V1 m ρ c main_arg3 = m ((c : Thread nD τ).loc main_arg3) :=
  keep0_arg3 (W0 m ρ c)
theorem V1_v0 (c : Dev nD) :
    fam2T (V1 m ρ c main_v0 : S384x384.Idx → EReal) = fam2 (m ((c : Thread nD τ).loc main_arg4) : S384x384.Idx → EReal) := by
  funext q p
  exact (congrFun (s0_v0 (W0 m ρ c)) (ix2 p q)).trans (transpose_ix2_apply _ _ p q)
theorem V1_v2 (c : Dev nD) :
    row (V1 m ρ c main_v2 : S1x384.Idx → EReal) = fam1 (m ((c : Thread nD τ).loc main_arg5) : S384.Idx → EReal) := by
  funext p
  exact (congrFun (s0_v2 (W0 m ρ c)) (ix2 0 p)).trans (shapeCast_a_1a_apply _ _ 0 p)

/-! ## Region 1's entry: region 0's output, its column statistics, the first scale and shift, the second weights -/

theorem V3_v8 (c : Dev nD) :
    (V3 m ρ c main_v8 : S16x4096x384.Idx → EReal) = (dat0 (V1 m ρ) c).arrAt 6 cfg0.N :=
  (keep1_v8 (W2 m ρ c)).trans (W2_v8 m ρ c)
theorem V3_v12 (c : Dev nD) :
    row (V3 m ρ c main_v12 : S1x384.Idx → EReal)
      = colMean colSum384 (fam3 ((dat0 (V1 m ρ) c).arrAt 6 cfg0.N : S16x4096x384.Idx → EReal)) :=
  (s1_mean (W2 m ρ c)).trans (by rw [W2_v8])
theorem V3_v20 (c : Dev nD) :
    row (V3 m ρ c main_v20 : S1x384.Idx → EReal)
      = colVar colSum384 (fam3 ((dat0 (V1 m ρ) c).arrAt 6 cfg0.N : S16x4096x384.Idx → EReal)) :=
  (s1_var (W2 m ρ c)).trans (by rw [W2_v8])
theorem V3_v4 (c : Dev nD) :
    row (V3 m ρ c main_v4 : S1x384.Idx → EReal) = fam1 (m ((c : Thread nD τ).loc main_arg6) : S384.Idx → EReal) := by
  have e : (V3 m ρ c main_v4 : S1x384.Idx → EReal)
      = shapeCast S1x384 (m ((c : Thread nD τ).loc main_arg6) : S384.Idx → EReal) shapeCasts_S384_S1x384 :=
    ((keep1_v4 (W2 m ρ c)).trans (W2_of_ne m ρ c main_v4 (by decide))).trans (s0_v4 (W0 m ρ c))
  funext p
  exact (congrFun e (ix2 0 p)).trans (shapeCast_a_1a_apply _ _ 0 p)
theorem V3_v5 (c : Dev nD) :
    row (V3 m ρ c main_v5 : S1x384.Idx → EReal) = fam1 (m ((c : Thread nD τ).loc main_arg7) : S384.Idx → EReal) := by
  have e : (V3 m ρ c main_v5 : S1x384.Idx → EReal)
      = shapeCast S1x384 (m ((c : Thread nD τ).loc main_arg7) : S384.Idx → EReal) shapeCasts_S384_S1x384 :=
    ((keep1_v5 (W2 m ρ c)).trans (W2_of_ne m ρ c main_v5 (by decide))).trans (s0_v5 (W0 m ρ c))
  funext p
  exact (congrFun e (ix2 0 p)).trans (shapeCast_a_1a_apply _ _ 0 p)
theorem V3_v1 (c : Dev nD) :
    fam2T (V3 m ρ c main_v1 : S384x256.Idx → EReal) = fam2 (m ((c : Thread nD τ).loc main_arg8) : S256x384.Idx → EReal) := by
  have e : (V3 m ρ c main_v1 : S384x256.Idx → EReal)
      = transpose S384x256 [1, 0] (m ((c : Thread nD τ).loc main_arg8) : S256x384.Idx → EReal) transposes_S256x384_S384x256_1_0 :=
    ((keep1_v1 (W2 m ρ c)).trans (W2_of_ne m ρ c main_v1 (by decide))).trans (s0_v1 (W0 m ρ c))
  funext q p
  exact (congrFun e (ix2 p q)).trans (transpose_ix2_apply _ _ p q)
theorem V3_v3 (c : Dev nD) :
    row (V3 m ρ c main_v3 : S1x256.Idx → EReal) = fam1 (m ((c : Thread nD τ).loc main_arg9) : S256.Idx → EReal) := by
  have e : (V3 m ρ c main_v3 : S1x256.Idx → EReal)
      = shapeCast S1x256 (m ((c : Thread nD τ).loc main_arg9) : S256.Idx → EReal) shapeCasts_S256_S1x256 :=
    ((keep1_v3 (W2 m ρ c)).trans (W2_of_ne m ρ c main_v3 (by decide))).trans (s0_v3 (W0 m ρ c))
  funext p
  exact (congrFun e (ix2 0 p)).trans (shapeCast_a_1a_apply _ _ 0 p)

/-! ## Region 2's entry: region 1's output, its column statistics, the second scale and shift -/

theorem V5_v21 (c : Dev nD) :
    (V5 m ρ c main_v21 : S16x4096x256.Idx → EReal) = (dat1 (V3 m ρ) c).arrAt 7 cfg1.N :=
  (keep2_v21 (W4 m ρ c)).trans (W4_v21 m ρ c)
theorem V5_v25 (c : Dev nD) :
    row (V5 m ρ c main_v25 : S1x256.Idx → EReal)
      = colMean colSum256 (fam3 ((dat1 (V3 m ρ) c).arrAt 7 cfg1.N : S16x4096x256.Idx → EReal)) :=
  (s2_mean (W4 m ρ c)).trans (by rw [W4_v21])
theorem V5_v33 (c : Dev nD) :
    row (V5 m ρ c main_v33 : S1x256.Idx → EReal)
      = colVar colSum256 (fam3 ((dat1 (V3 m ρ) c).arrAt 7 cfg1.N : S16x4096x256.Idx → EReal)) :=
  (s2_var (W4 m ρ c)).trans (by rw [W4_v21])
theorem V5_v6 (c : Dev nD) :
    row (V5 m ρ c main_v6 : S1x256.Idx → EReal) = fam1 (m ((c : Thread nD τ).loc main_arg10) : S256.Idx → EReal) := by
  have e : (V5 m ρ c main_v6 : S1x256.Idx → EReal)
      = shapeCast S1x256 (m ((c : Thread nD τ).loc main_arg10) : S256.Idx → EReal) shapeCasts_S256_S1x256 :=
    ((((keep2_v6 (W4 m ρ c)).trans (W4_of_ne m ρ c main_v6 (by decide))).trans (keep1_v6 (W2 m ρ c))).trans
      (W2_of_ne m ρ c main_v6 (by decide))).trans (s0_v6 (W0 m ρ c))
  funext p
  exact (congrFun e (ix2 0 p)).trans (shapeCast_a_1a_apply _ _ 0 p)
theorem V5_v7 (c : Dev nD) :
    row (V5 m ρ c main_v7 : S1x256.Idx → EReal) = fam1 (m ((c : Thread nD τ).loc main_arg11) : S256.Idx → EReal) := by
  have e : (V5 m ρ c main_v7 : S1x256.Idx → EReal)
      = shapeCast S1x256 (m ((c : Thread nD τ).loc main_arg11) : S256.Idx → EReal) shapeCasts_S256_S1x256 :=
    ((((keep2_v7 (W4 m ρ c)).trans (W4_of_ne m ρ c main_v7 (by decide))).trans (keep1_v7 (W2 m ρ c))).trans
      (W2_of_ne m ρ c main_v7 (by decide))).trans (s0_v7 (W0 m ρ c))
  funext p
  exact (congrFun e (ix2 0 p)).trans (shapeCast_a_1a_apply _ _ 0 p)

end Cert.KernelIdeal.Val

end
-- ==== Proof.KernelValue.lean ====
/-
  The kernel program's result array after its three regions, as the whole map of the twelve arguments.
-/
import proofs.«149719_j46755013984985_1_alg».proof.Proof.Region0
import proofs.«149719_j46755013984985_1_alg».proof.Proof.Region1
import proofs.«149719_j46755013984985_1_alg».proof.Proof.Region2
import proofs.«149719_j46755013984985_1_alg».proof.Proof.HostGlue
import proofs.«149719_j46755013984985_1_alg».proof.Proof.KernelRun

set_option maxRecDepth 16384

noncomputable section

namespace Cert.KernelIdeal.Val

open Cert.KernelIdeal Cert.KernelIdeal.Gen PointFeature
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The contents of the result array at the last boundary. -/
theorem kernel_value (c : Dev nD) :
    (W6 m ρ c (Proc.devRef .tc main_v34) : S16x4096x256.Idx → EReal)
      = arr3 (result colSum384 colSum256
          (fam3 (m ((c : Thread nD τ).loc main_arg0) : S16x1024x3.Idx → EReal))
          (fam3 (m ((c : Thread nD τ).loc main_arg1) : S16x4096x3.Idx → EReal))
          (fam3 (m ((c : Thread nD τ).loc main_arg2) : S16x1024x256.Idx → EReal))
          (fam3 (m ((c : Thread nD τ).loc main_arg3) : S16x4096x128.Idx → EReal))
          (fam2 (m ((c : Thread nD τ).loc main_arg4) : S384x384.Idx → EReal))
          (fam1 (m ((c : Thread nD τ).loc main_arg5) : S384.Idx → EReal))
          (fam1 (m ((c : Thread nD τ).loc main_arg6) : S384.Idx → EReal))
          (fam1 (m ((c : Thread nD τ).loc main_arg7) : S384.Idx → EReal))
          (fam2 (m ((c : Thread nD τ).loc main_arg8) : S256x384.Idx → EReal))
          (fam1 (m ((c : Thread nD τ).loc main_arg9) : S256.Idx → EReal))
          (fam1 (m ((c : Thread nD τ).loc main_arg10) : S256.Idx → EReal))
          (fam1 (m ((c : Thread nD τ).loc main_arg11) : S256.Idx → EReal))) := by
  have h6 : (W6 m ρ c (Proc.devRef .tc main_v34) : S16x4096x256.Idx → EReal) = (dat2 (V5 m ρ) c).arrAt 5 cfg2.N :=
    W6_arr m ρ c 5
  rw [h6, region2_value (V5 m ρ) c, V5_v21, V5_v25, V5_v33, V5_v6, V5_v7,
    region1_value (V3 m ρ) c, V3_v8, V3_v12, V3_v20, V3_v4, V3_v5, V3_v1, V3_v3,
    region0_value (V1 m ρ) c, V1_arg0, V1_arg1, V1_arg2, V1_arg3, V1_v0, V1_v2]
  rfl

end Cert.KernelIdeal.Val

end
-- ==== Proof.RefValue1.lean ====
/-
  The reference's first layer, entry by entry. The entry at cloud `b`, dense point `n`, channel `d` depends on that point's
  three coordinates and 128 features, on the coordinates and 256 features of all 1024 sparse points of cloud `b`, on row `d`
  of the weight matrix and on entry `d` of the bias. The squared distance to sparse point `m` is `|u|² + |d_m|² − 2⟨u, d_m⟩`;
  the reciprocal of (that + ε), divided by the sum of those reciprocals over `m`, weighs sparse point `m`'s features; the weighted
  sums fill columns 128…383 of a row whose first 128 columns are the point's own features, and the row is contracted with row
  `d` of the weights before the bias is added. Every sum starts from the zero word, the additive zero, so it is the plain finite sum.
-/
import proofs.«149719_j46755013984985_1_alg».proof.Proof.RefRead
import proofs.«149719_j46755013984985_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.ReferenceIdeal.RefVal

open Cert.ReferenceIdeal Cert.ReferenceIdeal.ReadP PointFeature
open Idealize.ShloMosaic Idealize.ShloMosaic.ValueIdx

/-- The squared length of dense point n of cloud b. -/
theorem sqUp_eq (x1 : S16x4096x3.Idx → EReal) (b : Fin 16) (n : Fin 4096) :
    val_main_v1 (F := Ideal) x1 (ix2 b n) = sqLen (fam3 x1 b n) := by
  have e : ∀ k : Fin 3, idx_main_v1 (ix2 b n) k = ix3 b n k := fun k =>
    funext fun a => Fin.ext (by match a with | ⟨0, _⟩ => rfl | ⟨1, _⟩ => rfl | ⟨2, _⟩ => rfl)
  rw [val_main_v1_apply, val_main_cst_apply, Ideal.ofBits_def, Ideal.ofBits_zero_f32, zero_add]
  unfold sqLen
  refine Finset.sum_congr rfl fun k _ => ?_
  rw [val_main_v0_apply, e k, Ideal.mulf_def]

/-- The squared length of sparse point m of cloud b. -/
theorem sqDown_eq (x0 : S16x1024x3.Idx → EReal) (b : Fin 16) (m : Fin 1024) :
    val_main_v3 (F := Ideal) x0 (ix2 b m) = sqLen (fam3 x0 b m) := by
  have e : ∀ k : Fin 3, idx_main_v3 (ix2 b m) k = ix3 b m k := fun k =>
    funext fun a => Fin.ext (by match a with | ⟨0, _⟩ => rfl | ⟨1, _⟩ => rfl | ⟨2, _⟩ => rfl)
  rw [val_main_v3_apply, val_main_cst_0_apply, Ideal.ofBits_def, Ideal.ofBits_zero_f32, zero_add]
  unfold sqLen
  refine Finset.sum_congr rfl fun k _ => ?_
  rw [val_main_v2_apply, e k, Ideal.mulf_def]

/-- The inner product of dense point n with sparse point m. -/
theorem cross_eq (x0 : S16x1024x3.Idx → EReal) (x1 : S16x4096x3.Idx → EReal) (b : Fin 16) (n : Fin 4096) (m : Fin 1024) :
    val_main_v4 (F := Ideal) x0 x1 (ix3 b n m) = dot3 (fam3 x1 b n) (fam3 x0 b m) := by
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  rw [val_main_v4_apply]
  unfold dot3
  refine Finset.sum_congr rfl fun k _ => ?_
  rw [el k, er k]

/-- The reciprocal of (squared distance + ε) between dense point n and sparse point m. -/
theorem recip_eq (x0 : S16x1024x3.Idx → EReal) (x1 : S16x4096x3.Idx → EReal) (b : Fin 16) (n : Fin 4096) (m : Fin 1024) :
    val_main_v16 (F := Ideal) x0 x1 (ix3 b n m) = invDist (fam3 x0 b) (fam3 x1 b n) m := by
  have e7 : idx_main_v5 (idx_main_v7 (ix3 b n m)) = ix2 b n :=
    funext fun a => Fin.ext (by match a with | ⟨0, _⟩ => rfl | ⟨1, _⟩ => rfl)
  have e8 : idx_main_v6 (idx_main_v8 (ix3 b n m)) = ix2 b m :=
    funext fun a => Fin.ext (by match a with | ⟨0, _⟩ => rfl | ⟨1, _⟩ => rfl)
  rw [val_main_v16_apply, val_main_v15_apply, val_main_cst_3_apply, val_main_v14_apply, val_main_v13_apply,
    val_main_cst_2_apply, val_main_v12_apply, val_main_v11_apply, val_main_v10_apply, val_main_cst_1_apply,
    val_main_v9_apply, val_main_v8_apply, val_main_v6_apply, val_main_v7_apply, val_main_v5_apply,
    e7, e8, sqUp_eq, sqDown_eq, cross_eq]
  rfl

/-- The sum over the sparse points of those reciprocals. -/
theorem recipSum_eq (x0 : S16x1024x3.Idx → EReal) (x1 : S16x4096x3.Idx → EReal) (b : Fin 16) (n : Fin 4096) :
    val_main_v17 (F := Ideal) x0 x1 (ix2 b n) = invDistSum (fam3 x0 b) (fam3 x1 b n) := by
  have e : ∀ k : Fin 1024, idx_main_v17 (ix2 b n) k = ix3 b n k := fun k =>
    funext fun a => Fin.ext (by match a with | ⟨0, _⟩ => rfl | ⟨1, _⟩ => rfl | ⟨2, _⟩ => rfl)
  rw [val_main_v17_apply, val_main_cst_4_apply, Ideal.ofBits_def, Ideal.ofBits_zero_f32, zero_add]
  unfold invDistSum
  refine Finset.sum_congr rfl fun k _ => ?_
  rw [e k, recip_eq]

/-- The weight of sparse point m for dense point n. -/
theorem weight_eq (x0 : S16x1024x3.Idx → EReal) (x1 : S16x4096x3.Idx → EReal) (b : Fin 16) (n : Fin 4096) (m : Fin 1024) :
    val_main_v20 (F := Ideal) x0 x1 (ix3 b n m) = weight (fam3 x0 b) (fam3 x1 b n) m := by
  have e : idx_main_v18 (idx_main_v19 (ix3 b n m)) = ix2 b n :=
    funext fun a => Fin.ext (by match a with | ⟨0, _⟩ => rfl | ⟨1, _⟩ => rfl)
  rw [val_main_v20_apply, val_main_v19_apply, val_main_v18_apply, e, recip_eq, recipSum_eq]
  rfl

/-- The weighted mean of the sparse features at dense point n, channel d. -/
theorem interp_eq (x0 : S16x1024x3.Idx → EReal) (x1 : S16x4096x3.Idx → EReal) (x2 : S16x1024x256.Idx → EReal)
    (b : Fin 16) (n : Fin 4096) (d : Fin 256) :
    val_main_v21 (F := Ideal) x0 x1 x2 (ix3 b n d) = PointFeature.interp (fam3 x0 b) (fam3 x1 b n) (fam3 x2 b) d := by
  have el : ∀ k : Fin 1024, lidx_main_v21 (ix3 b n d) k = ix3 b n k := fun k =>
    funext fun a => Fin.ext (by match a with | ⟨0, _⟩ => rfl | ⟨1, _⟩ => rfl | ⟨2, _⟩ => rfl)
  have er : ∀ k : Fin 1024, ridx_main_v21 (ix3 b n d) k = ix3 b k d := fun k =>
    funext fun a => Fin.ext (by match a with | ⟨0, _⟩ => rfl | ⟨1, _⟩ => rfl | ⟨2, _⟩ => rfl)
  rw [val_main_v21_apply]
  unfold PointFeature.interp
  refine Finset.sum_congr rfl fun k _ => ?_
  rw [el k, er k, weight_eq]

/-- The joined row: the point's own features, then the interpolated ones. -/
theorem joined_eq (x0 : S16x1024x3.Idx → EReal) (x1 : S16x4096x3.Idx → EReal) (x2 : S16x1024x256.Idx → EReal)
    (x3 : S16x4096x128.Idx → EReal) (b : Fin 16) (n : Fin 4096) (c : Fin 384) :
    val_main_v22 (F := Ideal) x0 x1 x2 x3 (ix3 b n c)
      = joined (fam3 x0 b) (fam3 x1 b n) (fam3 x2 b) (fam3 x3 b n) c := by
  unfold joined val_main_v22
  by_cases h : c.val < 128
  · rw [dif_pos h]
    exact concatenate_pair_apply_left (2 : Fin 3) x3 (val_main_v21 (F := Ideal) x0 x1 x2)
      Gen.concatenates_S16x4096x128_S16x4096x256_S16x4096x384_d2 (ix3 b n c) rfl (ix3 b n ⟨c.val, h⟩)
      (fun a => by match a with | ⟨0, _⟩ => rfl | ⟨1, _⟩ => rfl | ⟨2, _⟩ => rfl)
  · rw [dif_neg h, ← interp_eq]
    exact concatenate_pair_apply_right (2 : Fin 3) x3 (val_main_v21 (F := Ideal) x0 x1 x2)
      Gen.concatenates_S16x4096x128_S16x4096x256_S16x4096x384_d2 (ix3 b n c) rfl rfl (ix3 b n ⟨c.val - 128, by omega⟩)
      (fun a ha => by match a with | ⟨0, _⟩ => rfl | ⟨1, _⟩ => rfl | ⟨2, _⟩ => exact absurd rfl ha)
      (by show (c.val - 128) + 128 = c.val; omega)

/-- The reference's first layer (its value `%26`) is the first layer's output over all points. -/
theorem val_v26_eq (x0 : S16x1024x3.Idx → EReal) (x1 : S16x4096x3.Idx → EReal) (x2 : S16x1024x256.Idx → EReal)
    (x3 : S16x4096x128.Idx → EReal) (x4 : S384x384.Idx → EReal) (x5 : S384.Idx → EReal) :
    (val_main_v26 (F := Ideal) x0 x1 x2 x3 x4 x5 : S16x4096x384.Idx → EReal)
      = arr3 (hidden1 (fam3 x0) (fam3 x1) (fam3 x2) (fam3 x3) (fam2 x4) (fam1 x5)) := by
  funext i
  obtain ⟨b, n, d, rfl⟩ : ∃ (b : Fin 16) (n : Fin 4096) (d : Fin 384), i = ix3 b n d := ⟨i 0, i 1, i 2, eq_ix3 i⟩
  have el : ∀ k : Fin 384, lidx_main_v23 (ix3 b n d) k = ix3 b n k := fun k =>
    funext fun a => Fin.ext (by match a with | ⟨0, _⟩ => rfl | ⟨1, _⟩ => rfl | ⟨2, _⟩ => rfl)
  have er : ∀ k : Fin 384, ridx_main_v23 (ix3 b n d) k = ix2 d k := fun k =>
    funext fun a => Fin.ext (by match a with | ⟨0, _⟩ => rfl | ⟨1, _⟩ => rfl)
  have eb : idx_main_v24 (idx_main_v25 (ix3 b n d)) = ix1 d :=
    funext fun a => Fin.ext (by match a with | ⟨0, _⟩ => rfl)
  rw [val_main_v26_apply, val_main_v25_apply, val_main_v24_apply, val_main_v23_apply, eb, Ideal.addf_def]
  show _ = linear _ _ _ d
  unfold linear
  refine congrArg (· + x5 (ix1 d)) (Finset.sum_congr rfl fun k _ => ?_)
  rw [el k, er k, joined_eq]

end Cert.ReferenceIdeal.RefVal

end
-- ==== Proof.RefValue2.lean ====
/-
  The reference from its first layer's output on. A batch normalisation needs, per channel, the sum over every point
  (both point axes) of the array and then of its squared deviation from the channel mean; those sums are the host's
  reduction, read through `colSum384` / `colSum256` and never opened. An entry of the second layer at (b, n, d)
  depends on the 384 channels of the first layer at point (b, n), on each channel's mean and variance, and on row d
  of the weights: centre, scale by the reciprocal root of variance + ε, learned scale and shift, floor at zero, contract
  with the row, add the bias. The result at (b, n, d) depends on the second layer at (b, n, d) and channel d's statistics.
-/
import proofs.«149719_j46755013984985_1_alg».proof.Proof.RefRead
import proofs.«149719_j46755013984985_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.ReferenceIdeal.RefVal

open Cert.ReferenceIdeal Cert.ReferenceIdeal.ReadP PointFeature
open Idealize.ShloMosaic Idealize.ShloMosaic.ValueIdx

/-! ## The first normalisation (384 channels), the rectifier and the second linear layer -/

/-- The mean of channel `d` over all points: the reduced sum over the two point axes, divided by the count. -/
theorem mean384 (x0 : S16x1024x3.Idx → EReal) (x1 : S16x4096x3.Idx → EReal) (x2 : S16x1024x256.Idx → EReal)
    (x3 : S16x4096x128.Idx → EReal) (x4 : S384x384.Idx → EReal) (x5 : S384.Idx → EReal) (d : Fin 384) :
    val_main_v30 (F := Ideal) x0 x1 x2 x3 x4 x5 (ix3 0 0 d)
      = colMean colSum384 (fam3 (val_main_v26 (F := Ideal) x0 x1 x2 x3 x4 x5 : S16x4096x384.Idx → EReal)) d := by
  rw [val_main_v30_apply, val_main_v28_apply, val_main_v29_apply]
  unfold val_main_v27 val_main_cst_5
  rw [colSum384_eq]
  generalize val_main_v26 (F := Ideal) x0 x1 x2 x3 x4 x5 = H
  rfl

/-- The array whose channel sums give the variance is the squared deviation from the channel means. -/
theorem sqDev384 (x0 : S16x1024x3.Idx → EReal) (x1 : S16x4096x3.Idx → EReal) (x2 : S16x1024x256.Idx → EReal)
    (x3 : S16x4096x128.Idx → EReal) (x4 : S384x384.Idx → EReal) (x5 : S384.Idx → EReal) :
    fam3 (val_main_v33 (F := Ideal) x0 x1 x2 x3 x4 x5 : S16x4096x384.Idx → EReal)
      = sqDev (fam3 (val_main_v26 (F := Ideal) x0 x1 x2 x3 x4 x5 : S16x4096x384.Idx → EReal))
          (colMean colSum384 (fam3 (val_main_v26 (F := Ideal) x0 x1 x2 x3 x4 x5 : S16x4096x384.Idx → EReal))) := by
  funext b n c
  show val_main_v33 (F := Ideal) x0 x1 x2 x3 x4 x5 (ix3 b n c) = _
  have e : idx_main_v31 (ix3 b n c) = ix3 0 0 c :=
    funext fun a => Fin.ext (by match a with | ⟨0, _⟩ => rfl | ⟨1, _⟩ => rfl | ⟨2, _⟩ => rfl)
  rw [val_main_v33_apply, val_main_v32_apply, val_main_v31_apply, e, mean384]
  generalize val_main_v26 (F := Ideal) x0 x1 x2 x3 x4 x5 = H
  rfl

/-- The (biased) variance of channel `d` over all points. -/
theorem var384 (x0 : S16x1024x3.Idx → EReal) (x1 : S16x4096x3.Idx → EReal) (x2 : S16x1024x256.Idx → EReal)
    (x3 : S16x4096x128.Idx → EReal) (x4 : S384x384.Idx → EReal) (x5 : S384.Idx → EReal) (d : Fin 384) :
    val_main_v37 (F := Ideal) x0 x1 x2 x3 x4 x5 (ix3 0 0 d)
      = colVar colSum384 (fam3 (val_main_v26 (F := Ideal) x0 x1 x2 x3 x4 x5 : S16x4096x384.Idx → EReal)) d := by
  rw [val_main_v37_apply, val_main_v35_apply, val_main_v36_apply]
  unfold val_main_v34 val_main_cst_7
  rw [colSum384_eq, sqDev384]
  generalize val_main_v26 (F := Ideal) x0 x1 x2 x3 x4 x5 = H
  rfl

/-- The rectified, normalised first layer at point `(b, n)`, channel `c`: centre by the channel mean, scale by
    the reciprocal root of the channel variance plus ε, apply the learned scale and shift, floor at zero. -/
theorem act384 (x0 : S16x1024x3.Idx → EReal) (x1 : S16x4096x3.Idx → EReal) (x2 : S16x1024x256.Idx → EReal)
    (x3 : S16x4096x128.Idx → EReal) (x4 : S384x384.Idx → EReal) (x5 x6 x7 : S384.Idx → EReal) (b : Fin 16) (n : Fin 4096) (c : Fin 384) :
    val_main_v51 (F := Ideal) x0 x1 x2 x3 x4 x5 x6 x7 (ix3 b n c)
      = reluPt (affinePt (fam3 (val_main_v26 (F := Ideal) x0 x1 x2 x3 x4 x5 : S16x4096x384.Idx → EReal) b n)
          (colMean colSum384 (fam3 (val_main_v26 (F := Ideal) x0 x1 x2 x3 x4 x5 : S16x4096x384.Idx → EReal)))
          (colVar colSum384 (fam3 (val_main_v26 (F := Ideal) x0 x1 x2 x3 x4 x5 : S16x4096x384.Idx → EReal))) (fam1 x6) (fam1 x7)) c := by
  have e38 : idx_main_v38 (ix3 b n c) = ix3 0 0 c :=
    funext fun a => Fin.ext (by match a with | ⟨0, _⟩ => rfl | ⟨1, _⟩ => rfl | ⟨2, _⟩ => rfl)
  have e43 : idx_main_v43 (ix3 b n c) = ix3 0 0 c :=
    funext fun a => Fin.ext (by match a with | ⟨0, _⟩ => rfl | ⟨1, _⟩ => rfl | ⟨2, _⟩ => rfl)
  have e46 : idx_main_v45 (idx_main_v46 (ix3 b n c)) = ix1 c :=
    funext fun a => Fin.ext (by match a with | ⟨0, _⟩ => rfl)
  have e49 : idx_main_v48 (idx_main_v49 (ix3 b n c)) = ix1 c :=
    funext fun a => Fin.ext (by match a with | ⟨0, _⟩ => rfl)
  rw [val_main_v51_apply, val_main_v50_apply, val_main_v47_apply, val_main_v44_apply, val_main_v39_apply,
    val_main_v38_apply, val_main_v43_apply, val_main_v42_apply, val_main_v41_apply, val_main_v46_apply,
    val_main_v45_apply, val_main_v49_apply, val_main_v48_apply, val_main_call0_v0_apply, val_main_v40_apply,
    e38, e43, e46, e49, mean384, var384]
  generalize val_main_v26 (F := Ideal) x0 x1 x2 x3 x4 x5 = H
  rfl

/-- The reference's second layer (its value `%55`) from its first layer's output (`%26`). -/
theorem val_v55_eq (x0 : S16x1024x3.Idx → EReal) (x1 : S16x4096x3.Idx → EReal) (x2 : S16x1024x256.Idx → EReal)
    (x3 : S16x4096x128.Idx → EReal) (x4 : S384x384.Idx → EReal) (x5 x6 x7 : S384.Idx → EReal)
    (x8 : S256x384.Idx → EReal) (x9 : S256.Idx → EReal) :
    (val_main_v55 (F := Ideal) x0 x1 x2 x3 x4 x5 x6 x7 x8 x9 : S16x4096x256.Idx → EReal)
      = arr3 (hidden2 colSum384 (fam3 (val_main_v26 (F := Ideal) x0 x1 x2 x3 x4 x5 : S16x4096x384.Idx → EReal))
          (fam1 x6) (fam1 x7) (fam2 x8) (fam1 x9)) := by
  funext i
  obtain ⟨b, n, d, rfl⟩ : ∃ (b : Fin 16) (n : Fin 4096) (d : Fin 256), i = ix3 b n d := ⟨i 0, i 1, i 2, eq_ix3 i⟩
  have el : ∀ k : Fin 384, lidx_main_v52 (ix3 b n d) k = ix3 b n k := fun k =>
    funext fun a => Fin.ext (by match a with | ⟨0, _⟩ => rfl | ⟨1, _⟩ => rfl | ⟨2, _⟩ => rfl)
  have er : ∀ k : Fin 384, ridx_main_v52 (ix3 b n d) k = ix2 d k := fun k =>
    funext fun a => Fin.ext (by match a with | ⟨0, _⟩ => rfl | ⟨1, _⟩ => rfl)
  have e9 : idx_main_v53 (idx_main_v54 (ix3 b n d)) = ix1 d :=
    funext fun a => Fin.ext (by match a with | ⟨0, _⟩ => rfl)
  rw [val_main_v55_apply, val_main_v52_apply, val_main_v54_apply, val_main_v53_apply, e9]
  simp only [el, er, act384]
  generalize val_main_v26 (F := Ideal) x0 x1 x2 x3 x4 x5 = H
  rfl

/-! ## The second normalisation (256 channels) -/

/-- The mean of channel `d` of the second layer's output over all points. -/
theorem mean256 (x0 : S16x1024x3.Idx → EReal) (x1 : S16x4096x3.Idx → EReal) (x2 : S16x1024x256.Idx → EReal)
    (x3 : S16x4096x128.Idx → EReal) (x4 : S384x384.Idx → EReal) (x5 x6 x7 : S384.Idx → EReal)
    (x8 : S256x384.Idx → EReal) (x9 : S256.Idx → EReal) (d : Fin 256) :
    val_main_v59 (F := Ideal) x0 x1 x2 x3 x4 x5 x6 x7 x8 x9 (ix3 0 0 d)
      = colMean colSum256 (fam3 (val_main_v55 (F := Ideal) x0 x1 x2 x3 x4 x5 x6 x7 x8 x9 : S16x4096x256.Idx → EReal)) d := by
  rw [val_main_v59_apply, val_main_v57_apply, val_main_v58_apply]
  unfold val_main_v56 val_main_cst_10
  rw [colSum256_eq]
  generalize val_main_v55 (F := Ideal) x0 x1 x2 x3 x4 x5 x6 x7 x8 x9 = H
  rfl

/-- The array whose channel sums give the second variance is the squared deviation from the channel means. -/
theorem sqDev256 (x0 : S16x1024x3.Idx → EReal) (x1 : S16x4096x3.Idx → EReal) (x2 : S16x1024x256.Idx → EReal)
    (x3 : S16x4096x128.Idx → EReal) (x4 : S384x384.Idx → EReal) (x5 x6 x7 : S384.Idx → EReal)
    (x8 : S256x384.Idx → EReal) (x9 : S256.Idx → EReal) :
    fam3 (val_main_v62 (F := Ideal) x0 x1 x2 x3 x4 x5 x6 x7 x8 x9 : S16x4096x256.Idx → EReal)
      = sqDev (fam3 (val_main_v55 (F := Ideal) x0 x1 x2 x3 x4 x5 x6 x7 x8 x9 : S16x4096x256.Idx → EReal))
          (colMean colSum256 (fam3 (val_main_v55 (F := Ideal) x0 x1 x2 x3 x4 x5 x6 x7 x8 x9 : S16x4096x256.Idx → EReal))) := by
  funext b n c
  show val_main_v62 (F := Ideal) x0 x1 x2 x3 x4 x5 x6 x7 x8 x9 (ix3 b n c) = _
  have e : idx_main_v60 (ix3 b n c) = ix3 0 0 c :=
    funext fun a => Fin.ext (by match a with | ⟨0, _⟩ => rfl | ⟨1, _⟩ => rfl | ⟨2, _⟩ => rfl)
  rw [val_main_v62_apply, val_main_v61_apply, val_main_v60_apply, e, mean256]
  generalize val_main_v55 (F := Ideal) x0 x1 x2 x3 x4 x5 x6 x7 x8 x9 = H
  rfl

/-- The (biased) variance of channel `d` of the second layer's output over all points. -/
theorem var256 (x0 : S16x1024x3.Idx → EReal) (x1 : S16x4096x3.Idx → EReal) (x2 : S16x1024x256.Idx → EReal)
    (x3 : S16x4096x128.Idx → EReal) (x4 : S384x384.Idx → EReal) (x5 x6 x7 : S384.Idx → EReal)
    (x8 : S256x384.Idx → EReal) (x9 : S256.Idx → EReal) (d : Fin 256) :
    val_main_v66 (F := Ideal) x0 x1 x2 x3 x4 x5 x6 x7 x8 x9 (ix3 0 0 d)
      = colVar colSum256 (fam3 (val_main_v55 (F := Ideal) x0 x1 x2 x3 x4 x5 x6 x7 x8 x9 : S16x4096x256.Idx → EReal)) d := by
  rw [val_main_v66_apply, val_main_v64_apply, val_main_v65_apply]
  unfold val_main_v63 val_main_cst_12
  rw [colSum256_eq, sqDev256]
  generalize val_main_v55 (F := Ideal) x0 x1 x2 x3 x4 x5 x6 x7 x8 x9 = H
  rfl

/-- The reference's result (`%79`) from its second layer's output (`%55`). -/
theorem val_v79_eq (x0 : S16x1024x3.Idx → EReal) (x1 : S16x4096x3.Idx → EReal) (x2 : S16x1024x256.Idx → EReal)
    (x3 : S16x4096x128.Idx → EReal) (x4 : S384x384.Idx → EReal) (x5 x6 x7 : S384.Idx → EReal)
    (x8 : S256x384.Idx → EReal) (x9 x10 x11 : S256.Idx → EReal) :
    (val_main_v79 (F := Ideal) x0 x1 x2 x3 x4 x5 x6 x7 x8 x9 x10 x11 : S16x4096x256.Idx → EReal)
      = arr3 (batchNorm colSum256
          (fam3 (val_main_v55 (F := Ideal) x0 x1 x2 x3 x4 x5 x6 x7 x8 x9 : S16x4096x256.Idx → EReal)) (fam1 x10) (fam1 x11)) := by
  funext i
  obtain ⟨b, n, d, rfl⟩ : ∃ (b : Fin 16) (n : Fin 4096) (d : Fin 256), i = ix3 b n d := ⟨i 0, i 1, i 2, eq_ix3 i⟩
  have e67 : idx_main_v67 (ix3 b n d) = ix3 0 0 d :=
    funext fun a => Fin.ext (by match a with | ⟨0, _⟩ => rfl | ⟨1, _⟩ => rfl | ⟨2, _⟩ => rfl)
  have e72 : idx_main_v72 (ix3 b n d) = ix3 0 0 d :=
    funext fun a => Fin.ext (by match a with | ⟨0, _⟩ => rfl | ⟨1, _⟩ => rfl | ⟨2, _⟩ => rfl)
  have e75 : idx_main_v74 (idx_main_v75 (ix3 b n d)) = ix1 d :=
    funext fun a => Fin.ext (by match a with | ⟨0, _⟩ => rfl)
  have e78 : idx_main_v77 (idx_main_v78 (ix3 b n d)) = ix1 d :=
    funext fun a => Fin.ext (by match a with | ⟨0, _⟩ => rfl)
  rw [val_main_v79_apply, val_main_v76_apply, val_main_v73_apply, val_main_v68_apply, val_main_v67_apply,
    val_main_v72_apply, val_main_v71_apply, val_main_v70_apply, val_main_v75_apply, val_main_v74_apply,
    val_main_v78_apply, val_main_v77_apply, val_main_v69_apply, e67, e72, e75, e78, mean256, var256]
  generalize val_main_v55 (F := Ideal) x0 x1 x2 x3 x4 x5 x6 x7 x8 x9 = H
  rfl

end Cert.ReferenceIdeal.RefVal

end
-- ==== Proof.RefValue.lean ====
/-
  The reference's result as the one function of its twelve arguments that the kernel's program also computes.
-/
import proofs.«149719_j46755013984985_1_alg».proof.Proof.RefValue1
import proofs.«149719_j46755013984985_1_alg».proof.Proof.RefValue2

set_option maxRecDepth 16384

noncomputable section

namespace Cert.ReferenceIdeal.RefVal

open Cert.ReferenceIdeal Cert.ReferenceIdeal.ReadP PointFeature
open Idealize.ShloMosaic Idealize.ShloMosaic.ValueIdx

/-- A family laid out as an array and read back by coordinates is the family. -/
theorem fam3_arr3 {a b c : Nat} (f : Fin a → Fin b → Fin c → EReal) : fam3 (arr3 f) = f := rfl

/-- The reference's result is the whole map of the twelve arguments. -/
theorem val_v79_result (x0 : S16x1024x3.Idx → EReal) (x1 : S16x4096x3.Idx → EReal) (x2 : S16x1024x256.Idx → EReal)
    (x3 : S16x4096x128.Idx → EReal) (x4 : S384x384.Idx → EReal) (x5 x6 x7 : S384.Idx → EReal)
    (x8 : S256x384.Idx → EReal) (x9 x10 x11 : S256.Idx → EReal) :
    (val_main_v79 (F := Ideal) x0 x1 x2 x3 x4 x5 x6 x7 x8 x9 x10 x11 : S16x4096x256.Idx → EReal)
      = arr3 (result colSum384 colSum256 (fam3 x0) (fam3 x1) (fam3 x2) (fam3 x3) (fam2 x4) (fam1 x5) (fam1 x6) (fam1 x7)
          (fam2 x8) (fam1 x9) (fam1 x10) (fam1 x11)) := by
  rw [val_v79_eq, val_v55_eq, val_v26_eq]
  rfl

end Cert.ReferenceIdeal.RefVal

end
-- ==== Proof.lean ====
/-
  Feature propagation for point clouds: every point of a dense cloud takes an inverse-distance-weighted mean of the
  features of its cloud's sparse points, joins it to its own features, and the joined rows go through two linear
  layers, each followed by a batch normalisation over all 16 · 4096 points (the first also by a rectifier).

  The kernel program does this in three tiled passes — interpolation and the first layer, block by block of 1024
  dense points; the first normalisation, the rectifier and the second layer; the second normalisation — with the
  per-channel mean and variance taken between the passes by the host's sum over both point axes. The reference does the
  same arithmetic on whole arrays. Over the extended reals both are ONE function of the twelve inputs
  (`PointFeature.result`, Proof/Spec.lean): every sum inside a point (over 3 coordinates, over the 1024 sparse points,
  over the 384 channels) is the same finite sum however it is tiled, a change of float format is the identity, and the
  sum over all points is taken by the same operation on both sides, so it is carried along unopened. No law that would
  need finiteness is used: the two sides agree term by term.

  The kernel side reads the result array off the frame's run (Proof/KernelRun.lean, Proof/KernelValue.lean over
  Proof/Region0–2.lean and Proof/HostGlue.lean); the reference side reads its run one operation at a time
  (Proof/RefRunGen.lean, Proof/RefRead.lean, Proof/RefValue.lean).
-/
import proofs.«149719_j46755013984985_1_alg».proof.Defs
import proofs.«149719_j46755013984985_1_alg».proof.Proof.Gen.Kernel
import proofs.«149719_j46755013984985_1_alg».proof.Proof.Gen.Kernel.Skeleton
import proofs.«149719_j46755013984985_1_alg».proof.Proof.Gen.Kernel.Launch
import proofs.«149719_j46755013984985_1_alg».proof.Proof.Gen.Kernel.Points
import proofs.«149719_j46755013984985_1_alg».proof.Proof.Gen.Kernel.Frame
import proofs.«149719_j46755013984985_1_alg».proof.Proof.Gen.KernelIdeal
import proofs.«149719_j46755013984985_1_alg».proof.Proof.Gen.KernelIdeal.Skeleton
import proofs.«149719_j46755013984985_1_alg».proof.Proof.Gen.KernelIdeal.Launch
import proofs.«149719_j46755013984985_1_alg».proof.Proof.Gen.KernelIdeal.Points
import proofs.«149719_j46755013984985_1_alg».proof.Proof.Gen.KernelIdeal.Frame
import proofs.«149719_j46755013984985_1_alg».proof.Proof.Gen.ReferenceIdeal
import proofs.«149719_j46755013984985_1_alg».proof.Proof.Gen.Pre_finite_inputs
import proofs.«149719_j46755013984985_1_alg».proof.Proof.KernelValue
import proofs.«149719_j46755013984985_1_alg».proof.Proof.RefValue
import Idealize.ShloMosaic.Adequacy
import Idealize.ShloMosaic.Init

noncomputable section

namespace Cert.Proof

open Idealize.ShloMosaic Idealize.ShloMosaic.TcCoe Idealize.SL.Sem PointFeature

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end with the result array at `PointFeature.result` of the twelve (agreeing) arguments. -/
theorem algebraic : Cert.algebraic_KernelIdeal_ReferenceIdeal := by
  intro m ρ m' ρ' _ hagree
  refine ⟨fun c => arr3 (result colSum384 colSum256
      (fam3 (m ((c.tc : Thread Cert.KernelIdeal.nD Cert.KernelIdeal.τ).loc Cert.KernelIdeal.main_arg0) : Cert.KernelIdeal.S16x1024x3.Idx → EReal))
      (fam3 (m ((c.tc : Thread Cert.KernelIdeal.nD Cert.KernelIdeal.τ).loc Cert.KernelIdeal.main_arg1) : Cert.KernelIdeal.S16x4096x3.Idx → EReal))
      (fam3 (m ((c.tc : Thread Cert.KernelIdeal.nD Cert.KernelIdeal.τ).loc Cert.KernelIdeal.main_arg2) : Cert.KernelIdeal.S16x1024x256.Idx → EReal))
      (fam3 (m ((c.tc : Thread Cert.KernelIdeal.nD Cert.KernelIdeal.τ).loc Cert.KernelIdeal.main_arg3) : Cert.KernelIdeal.S16x4096x128.Idx → EReal))
      (fam2 (m ((c.tc : Thread Cert.KernelIdeal.nD Cert.KernelIdeal.τ).loc Cert.KernelIdeal.main_arg4) : Cert.KernelIdeal.S384x384.Idx → EReal))
      (fam1 (m ((c.tc : Thread Cert.KernelIdeal.nD Cert.KernelIdeal.τ).loc Cert.KernelIdeal.main_arg5) : Cert.KernelIdeal.S384.Idx → EReal))
      (fam1 (m ((c.tc : Thread Cert.KernelIdeal.nD Cert.KernelIdeal.τ).loc Cert.KernelIdeal.main_arg6) : Cert.KernelIdeal.S384.Idx → EReal))
      (fam1 (m ((c.tc : Thread Cert.KernelIdeal.nD Cert.KernelIdeal.τ).loc Cert.KernelIdeal.main_arg7) : Cert.KernelIdeal.S384.Idx → EReal))
      (fam2 (m ((c.tc : Thread Cert.KernelIdeal.nD Cert.KernelIdeal.τ).loc Cert.KernelIdeal.main_arg8) : Cert.KernelIdeal.S256x384.Idx → EReal))
      (fam1 (m ((c.tc : Thread Cert.KernelIdeal.nD Cert.KernelIdeal.τ).loc Cert.KernelIdeal.main_arg9) : Cert.KernelIdeal.S256.Idx → EReal))
      (fam1 (m ((c.tc : Thread Cert.KernelIdeal.nD Cert.KernelIdeal.τ).loc Cert.KernelIdeal.main_arg10) : Cert.KernelIdeal.S256.Idx → EReal))
      (fam1 (m ((c.tc : Thread Cert.KernelIdeal.nD Cert.KernelIdeal.τ).loc Cert.KernelIdeal.main_arg11) : Cert.KernelIdeal.S256.Idx → EReal))), ?_, ?_⟩
  · exact (θ_run Cert.KernelIdeal.defs _ _).mono
      (fun r h c => ⟨(h c).1.trans (Cert.KernelIdeal.Val.kernel_value m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11⟩ := hagree c
    rw [Cert.ReferenceIdeal.ReadP.val_main_v79_eq, h0, h1, h2, h3, h4, h5, h6, h7, h8, h9, h10, h11]
    exact Cert.ReferenceIdeal.RefVal.val_v79_result _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
